-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_arg12 : FVec F S1024x4096 .f32) (main_v48 : IVec S_ 1) (main_v49 : FVec F S1024x4096 .f32) (main_v50 : FVec F S1024x4096 .f32) : IVec S_ 1 :=
  let main_v51 : IVec S1024x4096 1 := cmpf .olt main_v49 main_v50
  let main_c_19 : IVec S_ 1 := constantI S_ 1 1#1
  let main_v52 : IVec S_ 1 := (fun x v => Host.reduce IntOp.andi x v reducesTo_S1024x4096_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x4096 .f32 := Host.absf main_arg12
  let main_cst_22 : FVec F S_ .f32 := constant S_ .f32 0x7F800000#32
  let main_v60 : FVec F S1024x4096 .f32 := broadcastInDim S1024x4096 ![] bcast_S_S1024x4096 main_cst_22
  let main_v61 : IVec S1024x4096 1 := cmpf .olt main_v59 main_v60
  let main_c_23 : IVec S_ 1 := constantI S_ 1 1#1
  let main_v62 : IVec S_ 1 := (fun x v => Host.reduce IntOp.andi x v reducesTo_S1024x4096_S_d0_1 h_S_) main_v61 main_c_23
  let main_v63 : IVec S_ 1 := andi main_v58 main_v62
  main_v63

def fn_part2 {F : FTy → Type} [FloatOps F] (main_arg7 : FVec F S4096x8192 .f32) (main_arg8 : FVec F S4096 .f32) (main_arg9 : FVec F S4096x8192 .f32) (main_arg10 : FVec F S1024x4096 .f32) (main_arg11 : FVec F S1024 .f32) (main_arg12 : FVec F S1024x4096 .f32) (main_v33 : IVec S_ 1) : IVec S_ 1 :=
  let main_v34 : FVec F S4096x8192 .f32 := Host.absf main_arg7
  let main_cst_12 : FVec F S_ .f32 := constant S_ .f32 0x7F800000#32
  let main_v35 : FVec F S4096x8192 .f32 := broadcastInDim S4096x8192 ![] bcast_S_S4096x8192 main_cst_12
  let main_v36 : IVec S4096x8192 1 := cmpf .olt main_v34 main_v35
  let main_c_13 : IVec S_ 1 := constantI S_ 1 1#1
  let main_v37 : IVec S_ 1 := (fun x v => Host.reduce IntOp.andi x v reducesTo_S4096x8192_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x8192 .f32 := Host.absf main_arg9
  let main_cst_16 : FVec F S_ .f32 := constant S_ .f32 0x7F800000#32
  let main_v45 : FVec F S4096x8192 .f32 := broadcastInDim S4096x8192 ![] bcast_S_S4096x8192 main_cst_16
  let main_v46 : IVec S4096x8192 1 := cmpf .olt main_v44 main_v45
  let main_c_17 : IVec S_ 1 := constantI S_ 1 1#1
  let main_v47 : IVec S_ 1 := (fun x v => Host.reduce IntOp.andi x v reducesTo_S4096x8192_S_d0_1 h_S_) main_v46 main_c_17
  let main_v48 : IVec S_ 1 := andi main_v43 main_v47
  let main_v49 : FVec F S1024x4096 .f32 := Host.absf main_arg10
  let main_cst_18 : FVec F S_ .f32 := constant S_ .f32 0x7F800000#32
  let main_v50 : FVec F S1024x4096 .f32 := broadcastInDim S1024x4096 ![] bcast_S_S1024x4096 main_cst_18
  fn_part3 (F := F) main_arg11 main_arg12 main_v48 main_v49 main_v50

def fn_part1 {F : FTy → Type} [FloatOps F] (main_arg4 : FVec F S8192x8192 .f32) (main_arg5 : FVec F S8192 .f32) (main_arg6 : FVec F S8192x8192 .f32) (main_arg7 : FVec F S4096x8192 .f32) (main_arg8 : FVec F S4096 .f32) (main_arg9 : FVec F S4096x8192 .f32) (main_arg10 : FVec F S1024x4096 .f32) (main_arg11 : FVec F S1024 .f32) (main_arg12 : FVec F S1024x4096 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x4096 .f32) (main_arg1 : FVec F S8192x4096 .f32) (main_arg2 : FVec F S8192 .f32) (main_arg3 : FVec F S8192x4096 .f32) (main_arg4 : FVec F S8192x8192 .f32) (main_arg5 : FVec F S8192 .f32) (main_arg6 : FVec F S8192x8192 .f32) (main_arg7 : FVec F S4096x8192 .f32) (main_arg8 : FVec F S4096 .f32) (main_arg9 : FVec F S4096x8192 .f32) (main_arg10 : FVec F S1024x4096 .f32) (main_arg11 : FVec F S1024 .f32) (main_arg12 : FVec F S1024x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_arg11 main_arg12 main_v13 main_v16
-- ==== Kernel.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S1024x4096 : Shape := ⟨2, ![1024, 4096]⟩
abbrev S1024 : Shape := ⟨1, ![1024]⟩
abbrev S1x8192 : Shape := ⟨2, ![1, 8192]⟩
abbrev S1024x512 : Shape := ⟨2, ![1024, 512]⟩
abbrev S1x1024 : Shape := ⟨2, ![1, 1024]⟩
abbrev S1024x1024 : Shape := ⟨2, ![1024, 1024]⟩
abbrev S1x4096 : Shape := ⟨2, ![1, 4096]⟩
abbrev S8192x1024 : Shape := ⟨2, ![8192, 1024]⟩

abbrev nBuf : Space → Nat
  | .hbm => 21
  | .vmem => 43
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x4096, .f32⟩
  | .hbm, ⟨4, _⟩ => ⟨S8192x8192, .f32⟩
  | .hbm, ⟨5, _⟩ => ⟨S8192, .f32⟩
  | .hbm, ⟨6, _⟩ => ⟨S8192x8192, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S1024x4096, .f32⟩
  | .hbm, ⟨11, _⟩ => ⟨S1024, .f32⟩
  | .hbm, ⟨12, _⟩ => ⟨S1024x4096, .f32⟩
  | .hbm, ⟨13, _⟩ => ⟨S1x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S1x4096, .f32⟩
  | .hbm, ⟨18, _⟩ => ⟨S8192x4096, .f32⟩
  | .hbm, ⟨19, _⟩ => ⟨S1x1024, .f32⟩
  | .hbm, ⟨20, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1x1024, .f32⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1x1024, .f32⟩
  | .local _ .vmem, ⟨40, _⟩ => ⟨S1024x1024, .f32⟩
  | .local _ .vmem, ⟨41, _⟩ => ⟨S1024x1024, .f32⟩
  | .local _ .vmem, ⟨42, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc3_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 8, 16], ![false, false, false]⟩

def k1_cond2 (i : grid1.Coords) : BitVec 1 :=
  let arg2 : BitVec 32 := BitVec.ofNat 32 (i 2).val
  let c15_i32 : BitVec 32 := 15#32
  let v16 : BitVec 1 := Scalar.cmpi .eq arg2 c15_i32
  let v17 : BitVec 32 := Scalar.extui v16
  let c0_i32_10 : BitVec 32 := 0#32
  let v18 : BitVec 1 := Scalar.cmpi .ne v17 c0_i32_10
  v18

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![8, 4, 16], ![false, false, false]⟩

def k2_cond2 (i : grid2.Coords) : BitVec 1 :=
  let arg2 : BitVec 32 := BitVec.ofNat 32 (i 2).val
  let c15_i32 : BitVec 32 := 15#32
  let v16 : BitVec 1 := Scalar.cmpi .eq arg2 c15_i32
  let v17 : BitVec 32 := Scalar.extui v16
  let c0_i32_10 : BitVec 32 := 0#32
  let v18 : BitVec 1 := Scalar.cmpi .ne v17 c0_i32_10
  v18

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨3, ![8, 1, 8], ![false, false, false]⟩

def k3_cond2 (i : grid3.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_10 : BitVec 32 := 0#32
  let v18 : BitVec 1 := Scalar.cmpi .ne v17 c0_i32_10
  v18

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, true, false]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

class Facts₀ : Prop where
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x512_S1024x512 : S1024x512.ShapeCasts S1024x512
  shapeCasts_S4096_S1x4096 : S4096.ShapeCasts S1x4096
  shapeCasts_S1024_S1x1024 : S1024.ShapeCasts S1x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .f32 = 32 ∨ (Rect.block (s := S8192x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x8192.size a
  hwx1_1 : ∀ i : grid1.Coords, EltTy.bits .f32 = 32 ∨ (Rect.block (s := S8192x8192) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x8192.size a
  hwx1_2 : ∀ i : grid1.Coords, EltTy.bits .f32 = 32 ∨ (Rect.block (s := S8192x8192) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x8192.size a
  hwx1_4 : ∀ i : grid1.Coords, EltTy.bits .f32 = 32 ∨ (Rect.block (s := S8192x8192) S1024x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x8192.size a
  hwx2_0 : ∀ i : grid2.Coords, EltTy.bits .f32 = 32 ∨ (Rect.block (s := S8192x8192) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x8192.size a
  hwx2_1 : ∀ i : grid2.Coords, EltTy.bits .f32 = 32 ∨ (Rect.block (s := S4096x8192) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x8192.size a
  hwx2_2 : ∀ i : grid2.Coords, EltTy.bits .f32 = 32 ∨ (Rect.block (s := S4096x8192) S1024x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x4096.size a
  hwx2_4 : ∀ i : grid2.Coords, EltTy.bits .f32 = 32 ∨ (Rect.block (s := S8192x4096) S1024x1024.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S8192x4096.size a
  hwx3_0 : ∀ i : grid3.Coords, EltTy.bits .f32 = 32 ∨ (Rect.block (s := S8192x4096) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x4096.size a
  hwx3_1 : ∀ i : grid3.Coords, EltTy.bits .f32 = 32 ∨ (Rect.block (s := S1024x4096) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S1024x4096.size a
  hwx3_2 : ∀ i : grid3.Coords, EltTy.bits .f32 = 32 ∨ (Rect.block (s := S1024x4096) S1024x512.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S8192x1024.size a
  hwx3_4 : ∀ i : grid3.Coords, EltTy.bits .f32 = 32 ∨ (Rect.block (s := S8192x1024) S1024x1024.size (cc3_transform_4 i) (hinb3_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v3) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v5) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S1024x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x1024.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S1024x1024.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S1024x4096 : Shape := ⟨2, ![1024, 4096]⟩
abbrev S1024 : Shape := ⟨1, ![1024]⟩
abbrev S1x8192 : Shape := ⟨2, ![1, 8192]⟩
abbrev S_ : Shape := ⟨0, ![]⟩
abbrev S1x4096 : Shape := ⟨2, ![1, 4096]⟩
abbrev S4096x1024 : Shape := ⟨2, ![4096, 1024]⟩
abbrev S8192x1024 : Shape := ⟨2, ![8192, 1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192, .f32⟩
  | .hbm, ⟨3, _⟩ => ⟨S8192x4096, .f32⟩
  | .hbm, ⟨4, _⟩ => ⟨S8192x8192, .f32⟩
  | .hbm, ⟨5, _⟩ => ⟨S8192, .f32⟩
  | .hbm, ⟨6, _⟩ => ⟨S8192x8192, .f32⟩
  | .hbm, ⟨7, _⟩ => ⟨S4096x8192, .f32⟩
  | .hbm, ⟨8, _⟩ => ⟨S4096, .f32⟩
  | .hbm, ⟨9, _⟩ => ⟨S4096x8192, .f32⟩
  | .hbm, ⟨10, _⟩ => ⟨S1024x4096, .f32⟩
  | .hbm, ⟨11, _⟩ => ⟨S1024, .f32⟩
  | .hbm, ⟨12, _⟩ => ⟨S1024x4096, .f32⟩
  | .hbm, ⟨13, _⟩ => ⟨S8192x4096, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S4096x8192, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S1024x4096, .f32⟩
  | .hbm, ⟨41, _⟩ => ⟨S4096x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x8192_S8192x8192_1_0 : S8192x8192.Transposes [1, 0] S8192x8192
  transposes_S4096x8192_S8192x4096_1_0 : S4096x8192.Transposes [1, 0] S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x4096_S4096x8192_S8192x8192_1_0_0_1_n_n_wf : DotDims.WF S8192x4096 S4096x8192 S8192x8192 [1] [0] [0] [1] [] []
  dot_S8192x8192_S8192x8192_S8192x8192_1_0_0_1_n_n_wf : DotDims.WF S8192x8192 S8192x8192 S8192x8192 [1] [0] [0] [1] [] []
  dot_S8192x8192_S8192x4096_S8192x4096_1_0_0_1_n_n_wf : DotDims.WF S8192x8192 S8192x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.KernelIdeal.L0.Runs.lean ====
/-
  Layer 0 of the masked MLP, one grid point of its kernel. The grid is (row tile, column tile, k step), 8 k steps to a
  tile; the accumulator is zeroed at k step 0, every k step adds the product of the point's x block with the
  transposed masked weight block, and the last k step adds the bias row, applies the layer's
  activation (a clamp at zero in every layer of the network but its last) and stores the output tile.
  Three control cases follow: the first k step, a middle one, the last one. For each, the body is run once on whole
  staging buffers; what it stores into the accumulator and into the output tile is recorded as the list of pieces written.
-/
import proofs.«155488_j45518063403493_1_alg».proof.Proof.Gen.KernelIdeal.Launch
import proofs.«155488_j45518063403493_1_alg».proof.Proof.Gen.KernelIdeal.Skeleton
import proofs.«155488_j45518063403493_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.L0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions over the grid -/

/-- "This is the first k step": the body's first branch, from the grid coordinates. -/
abbrev isFirst (i : grid0.Coords) : Prop :=
  (Scalar.cmpi .ne (Scalar.extui (Scalar.cmpi .eq (BitVec.ofNat 32 (i 2).val) 0#32)) 0#32) = 1#1
/-- It holds exactly at the points whose position is a multiple of the 8 k steps. -/
theorem isFirst_iff : ∀ t : Fin cfg0.N, isFirst (grid0.coords t) ↔ t.val % 8 = 0 :=
  (by decide +kernel : ∀ t : Fin grid0.N, isFirst (grid0.coords t) ↔ t.val % 8 = 0)

/-- "This is the last k step": the body's second branch. -/
abbrev isLast (i : grid0.Coords) : Prop := k0_cond2 i = 1#1
/-- It holds exactly at the points whose position is 7 modulo 8. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live_x : ∀ t : Fin cfg0.N, cfg0.idle 0 (grid0.coords t) = false := by decide +kernel
theorem live_w : ∀ t : Fin cfg0.N, cfg0.idle 1 (grid0.coords t) = false := by decide +kernel
theorem live_mask : ∀ t : Fin cfg0.N, cfg0.idle 2 (grid0.coords t) = false := by decide +kernel
theorem live_bias : ∀ t : Fin cfg0.N, cfg0.idle 3 (grid0.coords t) = false := by decide +kernel
/-- Before the last k step the output tile is idle: nothing is stored into it and it is not written back. -/
theorem idle_out : ∀ t : Fin cfg0.N, ¬isLast (grid0.coords t) → cfg0.idle 4 (grid0.coords t) = true := by decide +kernel
theorem noFlush_out : ∀ t : Fin cfg0.N, ¬isLast (grid0.coords t) → (cfg0.win 4).flush t = false := by decide +kernel
/-- At the last k step it is live. -/
theorem live_out : ∀ t : Fin cfg0.N, isLast (grid0.coords t) → cfg0.idle 4 (grid0.coords t) = false := by decide +kernel

/-! ## The staging buffers at a point, and the accumulator -/

abbrev mX (t : Fin cfg0.N) : Memref sig .tc .vmem S1024x512 .f32 := win0_0.stage (cfg0.slots t 0)
abbrev hX (t : Fin cfg0.N) : (mX t).IsWhole := hstage0_0 ((cfg0.slots t 0).cast nbuf0_0)
abbrev mW (t : Fin cfg0.N) : Memref sig .tc .vmem S1024x512 .f32 := win0_1.stage (cfg0.slots t 1)
abbrev hW (t : Fin cfg0.N) : (mW t).IsWhole := hstage0_1 ((cfg0.slots t 1).cast nbuf0_1)
abbrev mM (t : Fin cfg0.N) : Memref sig .tc .vmem S1024x512 .f32 := win0_2.stage (cfg0.slots t 2)
abbrev hM (t : Fin cfg0.N) : (mM t).IsWhole := hstage0_2 ((cfg0.slots t 2).cast nbuf0_2)
abbrev mB (t : Fin cfg0.N) : Memref sig .tc .vmem S1x1024 .f32 := win0_3.stage (cfg0.slots t 3)
abbrev hB (t : Fin cfg0.N) : (mB t).IsWhole := hstage0_3 ((cfg0.slots t 3).cast nbuf0_3)
abbrev mO (t : Fin cfg0.N) : Memref sig .tc .vmem S1024x1024 .f32 := win0_4.stage (cfg0.slots t 4)
abbrev hO (t : Fin cfg0.N) : (mO t).IsWhole := hstage0_4 ((cfg0.slots t 4).cast nbuf0_4)
/-- The accumulator: a whole scoped buffer of the kernel's own. -/
abbrev mAcc : Memref sig .tc .vmem S1024x1024 .f32 := Memref.whole cc0_scratch0

/-- The region invariant of a kernel that names no scoped buffer but its accumulator: the accumulator at some contents,
    the other scoped buffers unopened, the generator register at some state. -/
theorem PhiA_eq (c : Dev nD) :
    (Pipeline.ΦA spec0 c : sProp 𝕄)
      = iprop(iprop((∃ d, owns (c : Thread nD τ) mAcc fullShare d) ∗ Pipeline.scopedRestBut spec0 c [cc0_scratch0]) ∗ (∃ r, prngReg c r)) := by
  unfold Pipeline.ΦA; rw [scopedRest0_split]; simp only [mAcc, owns_whole]; try rfl

/-! ## The body, case by case -/

set_option maxHeartbeats 2000000 in
/-- FIRST k step. The inputs at their blocks, the output tile at contents handed back untouched, the accumulator at anything:
    the body ends with the accumulator's pieces `LS` written. -/
noncomputable def runFirst (c : Dev nD) (i : grid0.Coords)
    (a3 : Memref sig .tc .vmem S1024x512 .f32) (h3 : a3.IsWhole) (a4 : Memref sig .tc .vmem S1024x512 .f32) (h4 : a4.IsWhole)
    (a5 : Memref sig .tc .vmem S1024x512 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (hc0 : isFirst i) (hc1 : ¬isLast i)
    (x w mk : Vec F S1024x512 .f32) (b : Vec F S1x1024 .f32) :
    { LS : List (View.Piece (Elt F) S1024x1024 .f32) //
      ∀ (o : Vec F S1024x1024 .f32) (E : Set ℕ) (K : PUnit → sProp 𝕄),
        iprop(owns (c : Thread nD τ) a3 fullShare x ∗ owns (c : Thread nD τ) a4 fullShare w ∗ owns (c : Thread nD τ) a5 fullShare mk
            ∗ owns (c : Thread nD τ) a6 fullShare b ∗ owns (c : Thread nD τ) a7 fullShare o ∗ (∃ d, owns (c : Thread nD τ) a8 fullShare d)
            ∗ (iprop(owns (c : Thread nD τ) a3 fullShare x ∗ owns (c : Thread nD τ) a4 fullShare w ∗ owns (c : Thread nD τ) a5 fullShare mk
            ∗ owns (c : Thread nD τ) a6 fullShare b ∗ owns (c : Thread nD τ) a7 fullShare o
                ∗ (∃ f, a8.view.loc (c : Thread nD τ) ↦[a8.view.set]{fullShare} a8.view.writes (Elt F) f LS)) -∗ K ⟨⟩))
          ⊢ wp frame (wpE (defs₀ (F := F)) Variants.none c none) E (cc0__masked_linear_kernel i a3 h3 a4 h4 a5 h5 a6 h6 a7 h7 a8 h8) K } := by
  refine ⟨?_, fun o E K => ?run⟩
  case run =>
    simp only [cc0__masked_linear_kernel_eq_skeleton]; unfold cc0__masked_linear_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := h3.eq_unread hf3; obtain rfl := h4.eq_unread hf4; obtain rfl := h5.eq_unread hf5
    obtain rfl := h6.eq_unread hf6; obtain rfl := h7.eq_unread hf7
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 2000000 in
/-- A MIDDLE k step. As the first, but the accumulator holds what the k step before left, `acc`. -/
noncomputable def runMid (c : Dev nD) (i : grid0.Coords)
    (a3 : Memref sig .tc .vmem S1024x512 .f32) (h3 : a3.IsWhole) (a4 : Memref sig .tc .vmem S1024x512 .f32) (h4 : a4.IsWhole)
    (a5 : Memref sig .tc .vmem S1024x512 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (hc0 : ¬isFirst i) (hc1 : ¬isLast i)
    (x w mk : Vec F S1024x512 .f32) (b : Vec F S1x1024 .f32) (acc : Vec F S1024x1024 .f32) :
    { LS : List (View.Piece (Elt F) S1024x1024 .f32) //
      ∀ (o : Vec F S1024x1024 .f32) (E : Set ℕ) (K : PUnit → sProp 𝕄),
        iprop(owns (c : Thread nD τ) a3 fullShare x ∗ owns (c : Thread nD τ) a4 fullShare w ∗ owns (c : Thread nD τ) a5 fullShare mk
            ∗ owns (c : Thread nD τ) a6 fullShare b ∗ owns (c : Thread nD τ) a7 fullShare o ∗ owns (c : Thread nD τ) a8 fullShare acc
            ∗ (iprop(owns (c : Thread nD τ) a3 fullShare x ∗ owns (c : Thread nD τ) a4 fullShare w ∗ owns (c : Thread nD τ) a5 fullShare mk
            ∗ owns (c : Thread nD τ) a6 fullShare b ∗ owns (c : Thread nD τ) a7 fullShare o
                ∗ (∃ f, a8.view.loc (c : Thread nD τ) ↦[a8.view.set]{fullShare} a8.view.writes (Elt F) f LS)) -∗ K ⟨⟩))
          ⊢ wp frame (wpE (defs₀ (F := F)) Variants.none c none) E (cc0__masked_linear_kernel i a3 h3 a4 h4 a5 h5 a6 h6 a7 h7 a8 h8) K } := by
  refine ⟨?_, fun o E K => ?run⟩
  case run =>
    simp only [cc0__masked_linear_kernel_eq_skeleton]; unfold cc0__masked_linear_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 2000000 in
/-- The LAST k step. The accumulator holds `acc`, the output tile anything: the body ends with the accumulator's pieces
    `LS` and the output tile's pieces `LO` written. -/
noncomputable def runLast (c : Dev nD) (i : grid0.Coords)
    (a3 : Memref sig .tc .vmem S1024x512 .f32) (h3 : a3.IsWhole) (a4 : Memref sig .tc .vmem S1024x512 .f32) (h4 : a4.IsWhole)
    (a5 : Memref sig .tc .vmem S1024x512 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (hc0 : ¬isFirst i) (hc1 : isLast i)
    (x w mk : Vec F S1024x512 .f32) (b : Vec F S1x1024 .f32) (acc : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a3 fullShare x ∗ owns (c : Thread nD τ) a4 fullShare w ∗ owns (c : Thread nD τ) a5 fullShare mk
            ∗ owns (c : Thread nD τ) a6 fullShare b ∗ (∃ d, owns (c : Thread nD τ) a7 fullShare d) ∗ owns (c : Thread nD τ) a8 fullShare acc
            ∗ (iprop(owns (c : Thread nD τ) a3 fullShare x ∗ owns (c : Thread nD τ) a4 fullShare w ∗ owns (c : Thread nD τ) a5 fullShare mk
            ∗ owns (c : Thread nD τ) a6 fullShare b
                ∗ (∃ f, a7.view.loc (c : Thread nD τ) ↦[a7.view.set]{fullShare} a7.view.writes (Elt F) f LO)
                ∗ (∃ f, a8.view.loc (c : Thread nD τ) ↦[a8.view.set]{fullShare} a8.view.writes (Elt F) f LS)) -∗ K ⟨⟩))
          ⊢ wp frame (wpE (defs₀ (F := F)) Variants.none c none) E (cc0__masked_linear_kernel i a3 h3 a4 h4 a5 h5 a6 h6 a7 h7 a8 h8) K } := by
  refine ⟨?_, ?_, fun E K => ?run⟩
  case run =>
    simp only [cc0__masked_linear_kernel_eq_skeleton]; unfold cc0__masked_linear_kernel_skel
    unfold owns
    iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h3.eq_unread hf3; obtain rfl := h4.eq_unread hf4; obtain rfl := h5.eq_unread hf5
    obtain rfl := h6.eq_unread hf6; obtain rfl := h8.eq_unread hf8
    sl_exec (disch := first | exact hc0 | exact hc1)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]; · iexists _; iexact H7
    iexists _; iexact H8

end Cert.KernelIdeal.L0

end
-- ==== Proof.KernelIdeal.L0.Dat.lean ====
/-
  Layer 0 of the masked MLP as a pipeline: what every staging buffer and the accumulator hold after each grid point.
  The points of one output tile are 8 consecutive positions (the k steps). After a k step the accumulator holds the
  step's payload over what it started from: the zero block at a first k step, else what the step before left. After the
  last k step the output tile holds the bias-and-activation payload of the accumulator. The input windows' buffers hold
  their blocks at every point.
-/
import proofs.«155488_j45518063403493_1_alg».proof.Proof.KernelIdeal.L0.Runs
import Idealize.ShloMosaic.Lib.Pipeline.Value

set_option maxRecDepth 16384

noncomputable section

namespace Cert.KernelIdeal.L0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

theorem hz : (![0, 0] : Fin 2 → Nat) = fun _ => 0 := funext fun a => by fin_cases a <;> rfl

/-! ## What the three cases leave: the recorded pieces read back -/

section Pieces
variable (c : Dev nD) (i : grid0.Coords)
    (a3 : Memref sig .tc .vmem S1024x512 .f32) (h3 : a3.IsWhole) (a4 : Memref sig .tc .vmem S1024x512 .f32) (h4 : a4.IsWhole)
    (a5 : Memref sig .tc .vmem S1024x512 .f32) (h5 : a5.IsWhole) (a6 : Memref sig .tc .vmem S1x1024 .f32) (h6 : a6.IsWhole)
    (a7 : Memref sig .tc .vmem S1024x1024 .f32) (h7 : a7.IsWhole) (a8 : Memref sig .tc .vmem S1024x1024 .f32) (h8 : a8.IsWhole)
    (x w mk : Vec F S1024x512 .f32) (b : Vec F S1x1024 .f32) (acc : Vec F S1024x1024 .f32)

/-- The first k step's stores into the accumulator tile it. -/
theorem cover_first (hc0 : isFirst i) (hc1 : ¬isLast i) (y : S1024x1024.Idx) :
    ∃ pc ∈ (runFirst c i a3 h3 a4 h4 a5 h5 a6 h6 a7 h7 a8 h8 hc0 hc1 x w mk b).1, y ∈ pc.1.set :=
  View.cover_of_tiledL (runFirst c i a3 h3 a4 h4 a5 h5 a6 h6 a7 h7 a8 h8 hc0 hc1 x w mk b).1 S1024x1024.size (by sl_kernel_rfl) y

/-- After the first k step the accumulator holds the step's payload over the zero block: the zero block is stored, read
    back, and the sum stored over it. -/
theorem leaves_first (hc0 : isFirst i) (hc1 : ¬isLast i) (f : a8.view.ty.Contents (Elt F)) :
    a8.view.read (Elt F) (a8.view.writes (Elt F) f (runFirst c i a3 h3 a4 h4 a5 h5 a6 h6 a7 h7 a8 h8 hc0 hc1 x w mk b).1)
      = k0_pay2 x w mk k0_pay1 := by
  rw [View.read_writes_eq_canon _ _ _ (cover_first c i a3 h3 a4 h4 a5 h5 a6 h6 a7 h7 a8 h8 x w mk b hc0 hc1)]
  unfold runFirst
  dsimp only
  sl_unfold_words
  rw [View.canon_cons_unit_zero (S := S1024x1024) hz, View.readCov_unit_zero (S := S1024x1024) _ hz]
  simp only [View.readAt_eq_ld, h3.read_unread, h4.read_unread, h5.read_unread, View.ld_unit_zero (S := S1024x512) hz]

theorem cover_mid (hc0 : ¬isFirst i) (hc1 : ¬isLast i) (y : S1024x1024.Idx) :
    ∃ pc ∈ (runMid c i a3 h3 a4 h4 a5 h5 a6 h6 a7 h7 a8 h8 hc0 hc1 x w mk b acc).1, y ∈ pc.1.set :=
  View.cover_of_tiledL (runMid c i a3 h3 a4 h4 a5 h5 a6 h6 a7 h7 a8 h8 hc0 hc1 x w mk b acc).1 S1024x1024.size (by sl_kernel_rfl) y

/-- After a middle k step the accumulator holds the step's payload over what it held. -/
theorem leaves_mid (hc0 : ¬isFirst i) (hc1 : ¬isLast i) (f : a8.view.ty.Contents (Elt F)) :
    a8.view.read (Elt F) (a8.view.writes (Elt F) f (runMid c i a3 h3 a4 h4 a5 h5 a6 h6 a7 h7 a8 h8 hc0 hc1 x w mk b acc).1)
      = k0_pay2 x w mk acc := by
  rw [View.read_writes_eq_canon _ _ _ (cover_mid c i a3 h3 a4 h4 a5 h5 a6 h6 a7 h7 a8 h8 x w mk b acc hc0 hc1)]
  unfold runMid
  dsimp only
  sl_unfold_words
  rw [View.canon_unit_zero (S := S1024x1024) hz]
  simp only [View.readAt_eq_ld, h3.read_unread, h4.read_unread, h5.read_unread, h8.read_unread,
    View.ld_unit_zero (S := S1024x512) hz, View.ld_unit_zero (S := S1024x1024) hz]

theorem cover_last_acc (hc0 : ¬isFirst i) (hc1 : isLast i) (y : S1024x1024.Idx) :
    ∃ pc ∈ (runLast c i a3 h3 a4 h4 a5 h5 a6 h6 a7 h7 a8 h8 hc0 hc1 x w mk b acc).2.1, y ∈ pc.1.set :=
  View.cover_of_tiledL (runLast c i a3 h3 a4 h4 a5 h5 a6 h6 a7 h7 a8 h8 hc0 hc1 x w mk b acc).2.1 S1024x1024.size (by sl_kernel_rfl) y

theorem cover_last_out (hc0 : ¬isFirst i) (hc1 : isLast i) (y : S1024x1024.Idx) :
    ∃ pc ∈ (runLast c i a3 h3 a4 h4 a5 h5 a6 h6 a7 h7 a8 h8 hc0 hc1 x w mk b acc).1, y ∈ pc.1.set :=
  View.cover_of_tiledL (runLast c i a3 h3 a4 h4 a5 h5 a6 h6 a7 h7 a8 h8 hc0 hc1 x w mk b acc).1 S1024x1024.size (by sl_kernel_rfl) y

/-- After the last k step the accumulator holds the step's payload over what it held, -/
theorem leaves_last_acc (hc0 : ¬isFirst i) (hc1 : isLast i) (f : a8.view.ty.Contents (Elt F)) :
    a8.view.read (Elt F) (a8.view.writes (Elt F) f (runLast c i a3 h3 a4 h4 a5 h5 a6 h6 a7 h7 a8 h8 hc0 hc1 x w mk b acc).2.1)
      = k0_pay2 x w mk acc := by
  rw [View.read_writes_eq_canon _ _ _ (cover_last_acc c i a3 h3 a4 h4 a5 h5 a6 h6 a7 h7 a8 h8 x w mk b acc hc0 hc1)]
  unfold runLast
  dsimp only
  sl_unfold_words
  rw [View.canon_unit_zero (S := S1024x1024) hz]
  simp only [View.readAt_eq_ld, h3.read_unread, h4.read_unread, h5.read_unread, h8.read_unread,
    View.ld_unit_zero (S := S1024x512) hz, View.ld_unit_zero (S := S1024x1024) hz]

/-- and the output tile the bias-and-activation payload of that accumulator. -/
theorem leaves_last_out (hc0 : ¬isFirst i) (hc1 : isLast i) (f : a7.view.ty.Contents (Elt F)) :
    a7.view.read (Elt F) (a7.view.writes (Elt F) f (runLast c i a3 h3 a4 h4 a5 h5 a6 h6 a7 h7 a8 h8 hc0 hc1 x w mk b acc).1)
      = k0_pay3 (k0_pay2 x w mk acc) b := by
  rw [View.read_writes_eq_canon _ _ _ (cover_last_out c i a3 h3 a4 h4 a5 h5 a6 h6 a7 h7 a8 h8 x w mk b acc hc0 hc1)]
  unfold runLast
  dsimp only
  sl_unfold_words
  rw [View.canon_unit_zero (S := S1024x1024) hz]
  simp only [View.readAt_eq_ld, h3.read_unread, h4.read_unread, h5.read_unread, h6.read_unread, h8.read_unread,
    View.ld_unit_zero (S := S1024x512) hz, View.ld_unit_zero (S := S1024x1024) hz, View.ld_unit_zero (S := S1x1024) hz,
    View.readCov_unit_zero (S := S1024x1024) _ hz]

end Pieces

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x, weight, mask and bias blocks of a point, at their literal shapes. -/
abbrev xB (c : Dev nD) (t : Fin cfg0.N) : Vec F S1024x512 .f32 := iblk V c 0 t
abbrev wB (c : Dev nD) (t : Fin cfg0.N) : Vec F S1024x512 .f32 := iblk V c 1 t
abbrev kB (c : Dev nD) (t : Fin cfg0.N) : Vec F S1024x512 .f32 := iblk V c 2 t
abbrev bB (c : Dev nD) (t : Fin cfg0.N) : Vec F S1x1024 .f32 := iblk V c 3 t

/-- An input window's current staging buffer holds its block at every point, fetched there or not (unfetched, the block
    index has not moved), for any proof data over these arrays whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the output tile, point by point -/

/-- The accumulator after position `n`: the k step's payload of the point's blocks over what the step started from — the
    zero block at a first k step, else what position `n - 1` left. -/
def accAt (c : Dev nD) : (n : ℕ) → n < cfg0.N → Vec F S1024x1024 .f32
  | 0, h => k0_pay2 (xB V c ⟨0, h⟩) (wB V c ⟨0, h⟩) (kB V c ⟨0, h⟩) k0_pay1
  | n + 1, h => k0_pay2 (xB V c ⟨n + 1, h⟩) (wB V c ⟨n + 1, h⟩) (kB V c ⟨n + 1, h⟩)
      (if (n + 1) % 8 = 0 then k0_pay1 else accAt c n (Nat.lt_of_succ_lt h))

/-- The output tile after position `n` (read only at last k steps): bias and activation of the accumulator. -/
def outAt (c : Dev nD) (n : ℕ) (h : n < cfg0.N) : Vec F S1024x1024 .f32 :=
  k0_pay3 (accAt V c n h) (bB V c ⟨n, h⟩)

theorem accAt_first (c : Dev nD) (t : Fin cfg0.N) (h0 : t.val % 8 = 0) :
    accAt V c t.val t.isLt = k0_pay2 (xB V c t) (wB V c t) (kB V c t) k0_pay1 := by
  obtain ⟨n, hn⟩ := t
  cases n with
  | zero => rfl
  | succ n => exact congrArg (k0_pay2 _ _ _) (if_pos h0)

theorem accAt_next (c : Dev nD) (t : Fin cfg0.N) (h0 : ¬t.val % 8 = 0) :
    accAt V c t.val t.isLt = k0_pay2 (xB V c t) (wB V c t) (kB V c t)
      (accAt V c (t.val - 1) (Nat.lt_of_le_of_lt (Nat.sub_le _ _) t.isLt)) := by
  obtain ⟨n, hn⟩ := t
  cases n with
  | zero => exact absurd (Nat.zero_mod _) h0
  | succ n => exact congrArg (k0_pay2 _ _ _) (if_neg h0)

/-- The region invariant before position `n`: before the first point the accumulator at anything; afterwards at what
    the point before left; beside it the other scoped buffers unopened and the generator register at some state. -/
def PhiS (c : Dev nD) : (n : ℕ) → n ≤ cfg0.N → sProp 𝕄
  | 0, _ => Pipeline.ΦA spec0 c
  | n + 1, hn => iprop(iprop(owns (c : Thread nD τ) mAcc fullShare (accAt V c n hn) ∗ Pipeline.scopedRestBut spec0 c [cc0_scratch0]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) mAcc fullShare (accAt V c n hn) ∗ Pipeline.scopedRestBut spec0 c [cc0_scratch0]) ∗ (∃ r, prngReg c r)) := rfl

theorem PhiS_pos (c : Dev nD) (n : ℕ) (h : n ≤ cfg0.N) (hz : n ≠ 0) :
    PhiS V c n h = iprop(iprop(owns (c : Thread nD τ) mAcc fullShare (accAt V c (n - 1) (by omega)) ∗ Pipeline.scopedRestBut spec0 c [cc0_scratch0]) ∗ (∃ r, prngReg c r)) := by
  cases n with
  | zero => exact absurd rfl hz
  | succ n => rfl

/-! ## The proof data -/

/-- The arrays as the region finds them; after the body at a point each input's buffer at its block and the output tile at
    `outAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_x (c : Dev nD) (t : Fin cfg0.N) : (dat V c).after 0 t = iblk V c 0 t := by dsimp only [dat]
theorem after_w (c : Dev nD) (t : Fin cfg0.N) : (dat V c).after 1 t = iblk V c 1 t := by dsimp only [dat]
theorem after_mask (c : Dev nD) (t : Fin cfg0.N) : (dat V c).after 2 t = iblk V c 2 t := by dsimp only [dat]
theorem after_bias (c : Dev nD) (t : Fin cfg0.N) : (dat V c).after 3 t = iblk V c 3 t := by dsimp only [dat]
theorem after_out (c : Dev nD) (t : Fin cfg0.N) : (dat V c).after 4 t = outAt V c t.val t.isLt := by dsimp only [dat]

theorem before_x (c : Dev nD) (t : Fin cfg0.N) (d) : (dat V c).before 0 t d = iblk V c 0 t :=
  before0_of V (dat V c) (A_eq V c 0) (after_x V c) t d
theorem before_w (c : Dev nD) (t : Fin cfg0.N) (d) : (dat V c).before 1 t d = iblk V c 1 t :=
  before1_of V (dat V c) (A_eq V c 1) (after_w V c) t d
theorem before_mask (c : Dev nD) (t : Fin cfg0.N) (d) : (dat V c).before 2 t d = iblk V c 2 t :=
  before2_of V (dat V c) (A_eq V c 2) (after_mask V c) t d
theorem before_bias (c : Dev nD) (t : Fin cfg0.N) (d) : (dat V c).before 3 t d = iblk V c 3 t :=
  before3_of V (dat V c) (A_eq V c 3) (after_bias V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mX t) fullShare ((dat V c).before 0 t d))
    ∗ (∃ d, owns (c : Thread nD τ) (mW t) fullShare ((dat V c).before 1 t d))
    ∗ (∃ d, owns (c : Thread nD τ) (mM t) fullShare ((dat V c).before 2 t d))
    ∗ (∃ d, owns (c : Thread nD τ) (mB t) fullShare ((dat V c).before 3 t d))
    ∗ (∃ d, owns (c : Thread nD τ) (mO t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves_in (c : Dev nD) (t : Fin cfg0.N) :
    (dat V c).leavesExact 0 t = owns (c : Thread nD τ) (mX t) fullShare (iblk V c 0 t)
    ∧ (dat V c).leavesExact 1 t = owns (c : Thread nD τ) (mW t) fullShare (iblk V c 1 t)
    ∧ (dat V c).leavesExact 2 t = owns (c : Thread nD τ) (mM t) fullShare (iblk V c 2 t)
    ∧ (dat V c).leavesExact 3 t = owns (c : Thread nD τ) (mB t) fullShare (iblk V c 3 t) :=
  ⟨by unfold Dat.leavesExact; rw [live_x t, after_x], by unfold Dat.leavesExact; rw [live_w t, after_w],
   by unfold Dat.leavesExact; rw [live_mask t, after_mask], by unfold Dat.leavesExact; rw [live_bias t, after_bias]⟩

set_option maxHeartbeats 4800000 in
/-- The body at any point. The position modulo 8 says which case the point is in; the invariant hands the body the
    accumulator at what the point before left (at anything before the first point) and takes it back at this point's
    contents; an output tile not yet due is handed back untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w, before_mask, before_bias]
  rw [show (dat V c).owesAt () t.succ = (dat V c).owesAt () t.castSucc from rfl]
  rw [show (dat V c).Φ t.succ = PhiS V c (t.val + 1) t.isLt from rfl, PhiS_succ]
  rw [(leaves_in V c t).1, (leaves_in V c t).2.1, (leaves_in V c t).2.2.1, (leaves_in V c t).2.2.2]
  by_cases h0 : t.val % 8 = 0
  · have hf : isFirst (grid0.coords t) := (isFirst_iff t).mpr h0
    have hl : ¬isLast (grid0.coords t) := fun h => by have := (isLast_iff t).mp h; omega
    rw [Dat.leavesExact_idle (dat V c) 4 t (idle_out t hl) (noFlush_out t hl), accAt_first V c t h0]
    by_cases hz : t.val = 0
    · rw [Phi_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hf hl (xB V c t) (wB V c t) (kB V c t) (bB V c t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%f, HS⟩⟩
      isplitl [HS HR Hg]
      · isplitl [HS HR]
        · isplitl [HS]
          · unfold owns; iexists _; isplitr
            swap; · iexact HS
            ipureintro; exact leaves_first c _ _ _ _ _ _ _ _ _ _ _ _ _ _ _ _ _ hf hl f
          iexact HR
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ hf hl (xB V c t) (wB V c t) (kB V c t) (bB V c t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%f, HS⟩⟩
      isplitl [HS HR Hg]
      · isplitl [HS HR]
        · isplitl [HS]
          · unfold owns; iexists _; isplitr
            swap; · iexact HS
            ipureintro; exact leaves_first c _ _ _ _ _ _ _ _ _ _ _ _ _ _ _ _ _ hf hl f
          iexact HR
        iexact Hg
      isplitl [Ho]; · iexact Ho
      isplitl [H0]; · iexact H0
      isplitl [H1]; · iexact H1
      isplitl [H2]; · iexact H2
      isplitl [H3]; · iexact H3
      iexists _; iexact H4
  · have hf : ¬isFirst (grid0.coords t) := fun h => h0 ((isFirst_iff t).mp h)
    have hz : t.val ≠ 0 := fun e => h0 (by rw [e])
    rw [Phi_castSucc V c t, PhiS_pos V c _ _ hz, accAt_next V c t h0]
    by_cases h1 : t.val % 8 = 7
    · have hl : isLast (grid0.coords t) := (isLast_iff t).mpr h1
      rw [show (dat V c).leavesExact 4 t = owns (c : Thread nD τ) (mO t) fullShare ((dat V c).after 4 t) from by
        unfold Dat.leavesExact; rw [live_out t hl], after_out]
      unfold outAt
      rw [accAt_next V c t h0]
      iintro ⟨⟨⟨HS, HR⟩, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hf hl (xB V c t) (wB V c t) (kB V c t) (bB V c t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%fo, H4⟩, ⟨%f, HS⟩⟩
      isplitl [HS HR Hg]
      · isplitl [HS HR]
        · isplitl [HS]
          · unfold owns; iexists _; isplitr
            swap; · iexact HS
            ipureintro; exact leaves_last_acc c _ _ _ _ _ _ _ _ _ _ _ _ _ _ _ _ _ _ hf hl f
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact leaves_last_out c _ _ _ _ _ _ _ _ _ _ _ _ _ _ _ _ _ _ hf hl fo
    · have hl : ¬isLast (grid0.coords t) := fun h => h1 ((isLast_iff t).mp h)
      rw [Dat.leavesExact_idle (dat V c) 4 t (idle_out t hl) (noFlush_out t hl)]
      iintro ⟨⟨⟨HS, HR⟩, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ hf hl (xB V c t) (wB V c t) (kB V c t) (bB V c t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%f, HS⟩⟩
      isplitl [HS HR Hg]
      · isplitl [HS HR]
        · isplitl [HS]
          · unfold owns; iexists _; isplitr
            swap; · iexact HS
            ipureintro; exact leaves_mid c _ _ _ _ _ _ _ _ _ _ _ _ _ _ _ _ _ _ hf hl f
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the launch's back: the accumulator's named contents are forgotten. -/
theorem hout (c : Dev nD) : (dat V c).Φ (Fin.last cfg0.N) ⊢ Pipeline.ΦA spec0 c := by
  have hne : (Fin.last cfg0.N).val ≠ 0 := by rw [Fin.val_last]; have := N_0; show grid0.N ≠ 0; omega
  rw [show (dat V c).Φ (Fin.last cfg0.N) = PhiS V c (Fin.last cfg0.N).val (Nat.le_of_lt_succ (Fin.last cfg0.N).isLt) from rfl,
    PhiS_pos V c _ _ hne, PhiA_eq]
  iintro ⟨⟨HS, HR⟩, Hg⟩
  isplitl [HS HR]
  · isplitl [HS]
    · iexists _; iexact HS
    iexact HR
  iexact Hg

end Cert.KernelIdeal.L0

end
-- ==== Proof.KernelIdeal.Net.lean ====
/-
  The run of the network's program: four kernel regions, each after a one-operation host stretch that lays a bias vector
  out as a row. The buffers' contents at the nine boundaries are a fold from the launch memory: a host stretch leaves
  what its operation computes; a region leaves its arrays at what its write-backs fold to and every other buffer as it
  was. Every argument reaches the end as launched; each region's inputs are read back to where they came from.
-/
import proofs.«155488_j45518063403493_1_alg».proof.Proof.KernelIdeal.L0.Dat
import proofs.«155488_j45518063403493_1_alg».proof.Proof.KernelIdeal.L1.Dat
import proofs.«155488_j45518063403493_1_alg».proof.Proof.KernelIdeal.L2.Dat
import proofs.«155488_j45518063403493_1_alg».proof.Proof.KernelIdeal.L3.Dat
import proofs.«155488_j45518063403493_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the nine boundaries -/

/-- At launch. -/
abbrev W0 : Dev nD → Valuation τ sig (Elt F) := fun c b => m (c, b)

/-- After host stretch 0: layer 0's bias row is laid out. -/
abbrev W1 : Dev nD → Valuation τ sig (Elt F) := fun c => StableHlo.after hostOps0 (W0 m c)
/-- The same read at the core's references: what region 0 is entered with. -/
abbrev V1 : (c : Dev nD) → (b : Ref sig .tc) → Buf (Elt F) ((c : Thread nD τ).loc b) := fun c b => W1 m c b
/-- After region 0: its arrays at what the write-backs fold to, every other buffer as the region found it. -/
def W2 (c : Dev nD) : Valuation τ sig (Elt F) :=
  Pipeline.withArrays spec0 c (W1 m c) fun w => (L0.dat (V1 m) c).arrAt w cfg0.N
theorem W2_arr (c : Dev nD) (w : Fin cfg0.W) :
    W2 m c (Proc.devRef .tc (Pipeline.arrRef spec0 w)) = (L0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array is as the region found it. -/
theorem W2_in (c : Dev nD) (w : Fin cfg0.W) (hin : (cfg0.win w).isOut = false) :
    W2 m c (Proc.devRef .tc (Pipeline.arrRef spec0 w)) = V1 m c (Pipeline.arrRef spec0 w) :=
  (W2_arr m c w).trans (((L0.dat (V1 m) c).arrAt_in w hin _).trans (L0.A_eq (V1 m) c w))
/-- The same read at the core's references: what region 0 leaves. -/
abbrev V2 : (c : Dev nD) → (b : Ref sig .tc) → Buf (Elt F) ((c : Thread nD τ).loc b) := fun c b => W2 m c b
theorem hF0 (c : Dev nD) (w : Fin cfg0.W) : (L0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Host stretch 0 writes its bias row only. -/
theorem W1_of (c : Dev nD) (r : Ref sig .tc) (h : r ∉ (hostOps0_W : List (Ref sig .tc))) :
    W1 m c (Proc.devRef .tc r) = W0 m c (Proc.devRef .tc r) :=
  StableHlo.after_of_writes_sub hostOps0 _ hostOps0_writes h

/-- After host stretch 1: layer 1's bias row is laid out. -/
abbrev W3 : Dev nD → Valuation τ sig (Elt F) := fun c => StableHlo.after hostOps1 (W2 m c)
/-- The same read at the core's references: what region 1 is entered with. -/
abbrev V3 : (c : Dev nD) → (b : Ref sig .tc) → Buf (Elt F) ((c : Thread nD τ).loc b) := fun c b => W3 m c b
/-- After region 1: its arrays at what the write-backs fold to, every other buffer as the region found it. -/
def W4 (c : Dev nD) : Valuation τ sig (Elt F) :=
  Pipeline.withArrays spec1 c (W3 m c) fun w => (L1.dat (V3 m) c).arrAt w cfg1.N
theorem W4_arr (c : Dev nD) (w : Fin cfg1.W) :
    W4 m c (Proc.devRef .tc (Pipeline.arrRef spec1 w)) = (L1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array is as the region found it. -/
theorem W4_in (c : Dev nD) (w : Fin cfg1.W) (hin : (cfg1.win w).isOut = false) :
    W4 m c (Proc.devRef .tc (Pipeline.arrRef spec1 w)) = V3 m c (Pipeline.arrRef spec1 w) :=
  (W4_arr m c w).trans (((L1.dat (V3 m) c).arrAt_in w hin _).trans (L1.A_eq (V3 m) c w))
/-- The same read at the core's references: what region 1 leaves. -/
abbrev V4 : (c : Dev nD) → (b : Ref sig .tc) → Buf (Elt F) ((c : Thread nD τ).loc b) := fun c b => W4 m c b
theorem hF1 (c : Dev nD) (w : Fin cfg1.W) : (L1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Host stretch 1 writes its bias row only. -/
theorem W3_of (c : Dev nD) (r : Ref sig .tc) (h : r ∉ (hostOps1_W : List (Ref sig .tc))) :
    W3 m c (Proc.devRef .tc r) = W2 m c (Proc.devRef .tc r) :=
  StableHlo.after_of_writes_sub hostOps1 _ hostOps1_writes h

/-- After host stretch 2: layer 2's bias row is laid out. -/
abbrev W5 : Dev nD → Valuation τ sig (Elt F) := fun c => StableHlo.after hostOps2 (W4 m c)
/-- The same read at the core's references: what region 2 is entered with. -/
abbrev V5 : (c : Dev nD) → (b : Ref sig .tc) → Buf (Elt F) ((c : Thread nD τ).loc b) := fun c b => W5 m c b
/-- After region 2: its arrays at what the write-backs fold to, every other buffer as the region found it. -/
def W6 (c : Dev nD) : Valuation τ sig (Elt F) :=
  Pipeline.withArrays spec2 c (W5 m c) fun w => (L2.dat (V5 m) c).arrAt w cfg2.N
theorem W6_arr (c : Dev nD) (w : Fin cfg2.W) :
    W6 m c (Proc.devRef .tc (Pipeline.arrRef spec2 w)) = (L2.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- An input window's array is as the region found it. -/
theorem W6_in (c : Dev nD) (w : Fin cfg2.W) (hin : (cfg2.win w).isOut = false) :
    W6 m c (Proc.devRef .tc (Pipeline.arrRef spec2 w)) = V5 m c (Pipeline.arrRef spec2 w) :=
  (W6_arr m c w).trans (((L2.dat (V5 m) c).arrAt_in w hin _).trans (L2.A_eq (V5 m) c w))
/-- The same read at the core's references: what region 2 leaves. -/
abbrev V6 : (c : Dev nD) → (b : Ref sig .tc) → Buf (Elt F) ((c : Thread nD τ).loc b) := fun c b => W6 m c b
theorem hF2 (c : Dev nD) (w : Fin cfg2.W) : (L2.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- Host stretch 2 writes its bias row only. -/
theorem W5_of (c : Dev nD) (r : Ref sig .tc) (h : r ∉ (hostOps2_W : List (Ref sig .tc))) :
    W5 m c (Proc.devRef .tc r) = W4 m c (Proc.devRef .tc r) :=
  StableHlo.after_of_writes_sub hostOps2 _ hostOps2_writes h

/-- After host stretch 3: layer 3's bias row is laid out. -/
abbrev W7 : Dev nD → Valuation τ sig (Elt F) := fun c => StableHlo.after hostOps3 (W6 m c)
/-- The same read at the core's references: what region 3 is entered with. -/
abbrev V7 : (c : Dev nD) → (b : Ref sig .tc) → Buf (Elt F) ((c : Thread nD τ).loc b) := fun c b => W7 m c b
/-- After region 3: its arrays at what the write-backs fold to, every other buffer as the region found it. -/
def W8 (c : Dev nD) : Valuation τ sig (Elt F) :=
  Pipeline.withArrays spec3 c (W7 m c) fun w => (L3.dat (V7 m) c).arrAt w cfg3.N
theorem W8_arr (c : Dev nD) (w : Fin cfg3.W) :
    W8 m c (Proc.devRef .tc (Pipeline.arrRef spec3 w)) = (L3.dat (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- An input window's array is as the region found it. -/
theorem W8_in (c : Dev nD) (w : Fin cfg3.W) (hin : (cfg3.win w).isOut = false) :
    W8 m c (Proc.devRef .tc (Pipeline.arrRef spec3 w)) = V7 m c (Pipeline.arrRef spec3 w) :=
  (W8_arr m c w).trans (((L3.dat (V7 m) c).arrAt_in w hin _).trans (L3.A_eq (V7 m) c w))
/-- The same read at the core's references: what region 3 leaves. -/
abbrev V8 : (c : Dev nD) → (b : Ref sig .tc) → Buf (Elt F) ((c : Thread nD τ).loc b) := fun c b => W8 m c b
theorem hF3 (c : Dev nD) (w : Fin cfg3.W) : (L3.dat (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- Host stretch 3 writes its bias row only. -/
theorem W7_of (c : Dev nD) (r : Ref sig .tc) (h : r ∉ (hostOps3_W : List (Ref sig .tc))) :
    W7 m c (Proc.devRef .tc r) = W6 m c (Proc.devRef .tc r) :=
  StableHlo.after_of_writes_sub hostOps3 _ hostOps3_writes h

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => L0.dat (V1 m) c
  | ⟨1, _⟩ => fun c => L1.dat (V3 m) c
  | ⟨2, _⟩ => fun c => L2.dat (V5 m) c
  | ⟨3, _⟩ => fun c => L3.dat (V7 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes back; the accumulator's contents are forgotten at the exit; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (L0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (L0.hin (V1 m) c)
    unfold Pipeline.ΦA
    iintro ⟨Hp, -, Hr⟩
    isplitl [Hr]; · iexact Hr
    iexact Hp
  hout c := by
    rw [Pipeline.ownSems0_none]
    refine (L0.hout (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes back; the accumulator's contents are forgotten at the exit; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (L1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (L1.hin (V3 m) c)
    unfold Pipeline.ΦA
    iintro ⟨Hp, -, Hr⟩
    isplitl [Hr]; · iexact Hr
    iexact Hp
  hout c := by
    rw [Pipeline.ownSems0_none]
    refine (L1.hout (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the
    invariant and comes back; the accumulator's contents are forgotten at the exit; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (L2.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (L2.hin (V5 m) c)
    unfold Pipeline.ΦA
    iintro ⟨Hp, -, Hr⟩
    isplitl [Hr]; · iexact Hr
    iexact Hp
  hout c := by
    rw [Pipeline.ownSems0_none]
    refine (L2.hout (V5 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers and put back at the exit contents; the generator register goes into the
    invariant and comes back; the accumulator's contents are forgotten at the exit; nothing is owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (L3.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (L3.hin (V7 m) c)
    unfold Pipeline.ΦA
    iintro ⟨Hp, -, Hr⟩
    isplitl [Hr]; · iexact Hr
    iexact Hp
  hout c := by
    rw [Pipeline.ownSems0_none]
    refine (L3.hout (V7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eight segments in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]
/-- The program is the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each unscoped buffer of the core holds the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun _ h => h)

/-! ## Reading the fold back

No host stretch writes an argument, and a region has an argument as an input window's array or bypasses it: the fold at
an argument's buffer walks back to the launch memory. A region's x input is the launch's (first region) or the previous
region's output array; its weights and mask are the launch's; its bias row is the host stretch's layout of the launch's
bias vector. -/

theorem W8_main_arg0 (c : Dev nD) : W8 m c (Proc.devRef .tc main_arg0) = m ((c : Thread nD τ).loc main_arg0) :=
  (W8_of_ne m c main_arg0 (by decide)).trans <|
    (W7_of m c main_arg0 (by decide)).trans <|
    (W6_of_ne m c main_arg0 (by decide)).trans <|
    (W5_of m c main_arg0 (by decide)).trans <|
    (W4_of_ne m c main_arg0 (by decide)).trans <|
    (W3_of m c main_arg0 (by decide)).trans <|
    (W2_in m c 0 rfl).trans <|
    (W1_of m c main_arg0 (by decide)).trans rfl

theorem W8_main_arg1 (c : Dev nD) : W8 m c (Proc.devRef .tc main_arg1) = m ((c : Thread nD τ).loc main_arg1) :=
  (W8_of_ne m c main_arg1 (by decide)).trans <|
    (W7_of m c main_arg1 (by decide)).trans <|
    (W6_of_ne m c main_arg1 (by decide)).trans <|
    (W5_of m c main_arg1 (by decide)).trans <|
    (W4_of_ne m c main_arg1 (by decide)).trans <|
    (W3_of m c main_arg1 (by decide)).trans <|
    (W2_in m c 1 rfl).trans <|
    (W1_of m c main_arg1 (by decide)).trans rfl

theorem W8_main_arg2 (c : Dev nD) : W8 m c (Proc.devRef .tc main_arg2) = m ((c : Thread nD τ).loc main_arg2) :=
  (W8_of_ne m c main_arg2 (by decide)).trans <|
    (W7_of m c main_arg2 (by decide)).trans <|
    (W6_of_ne m c main_arg2 (by decide)).trans <|
    (W5_of m c main_arg2 (by decide)).trans <|
    (W4_of_ne m c main_arg2 (by decide)).trans <|
    (W3_of m c main_arg2 (by decide)).trans <|
    (W2_of_ne m c main_arg2 (by decide)).trans <|
    (W1_of m c main_arg2 (by decide)).trans rfl

theorem W8_main_arg3 (c : Dev nD) : W8 m c (Proc.devRef .tc main_arg3) = m ((c : Thread nD τ).loc main_arg3) :=
  (W8_of_ne m c main_arg3 (by decide)).trans <|
    (W7_of m c main_arg3 (by decide)).trans <|
    (W6_of_ne m c main_arg3 (by decide)).trans <|
    (W5_of m c main_arg3 (by decide)).trans <|
    (W4_of_ne m c main_arg3 (by decide)).trans <|
    (W3_of m c main_arg3 (by decide)).trans <|
    (W2_in m c 2 rfl).trans <|
    (W1_of m c main_arg3 (by decide)).trans rfl

theorem W8_main_arg4 (c : Dev nD) : W8 m c (Proc.devRef .tc main_arg4) = m ((c : Thread nD τ).loc main_arg4) :=
  (W8_of_ne m c main_arg4 (by decide)).trans <|
    (W7_of m c main_arg4 (by decide)).trans <|
    (W6_of_ne m c main_arg4 (by decide)).trans <|
    (W5_of m c main_arg4 (by decide)).trans <|
    (W4_in m c 1 rfl).trans <|
    (W3_of m c main_arg4 (by decide)).trans <|
    (W2_of_ne m c main_arg4 (by decide)).trans <|
    (W1_of m c main_arg4 (by decide)).trans rfl

theorem W8_main_arg5 (c : Dev nD) : W8 m c (Proc.devRef .tc main_arg5) = m ((c : Thread nD τ).loc main_arg5) :=
  (W8_of_ne m c main_arg5 (by decide)).trans <|
    (W7_of m c main_arg5 (by decide)).trans <|
    (W6_of_ne m c main_arg5 (by decide)).trans <|
    (W5_of m c main_arg5 (by decide)).trans <|
    (W4_of_ne m c main_arg5 (by decide)).trans <|
    (W3_of m c main_arg5 (by decide)).trans <|
    (W2_of_ne m c main_arg5 (by decide)).trans <|
    (W1_of m c main_arg5 (by decide)).trans rfl

theorem W8_main_arg6 (c : Dev nD) : W8 m c (Proc.devRef .tc main_arg6) = m ((c : Thread nD τ).loc main_arg6) :=
  (W8_of_ne m c main_arg6 (by decide)).trans <|
    (W7_of m c main_arg6 (by decide)).trans <|
    (W6_of_ne m c main_arg6 (by decide)).trans <|
    (W5_of m c main_arg6 (by decide)).trans <|
    (W4_in m c 2 rfl).trans <|
    (W3_of m c main_arg6 (by decide)).trans <|
    (W2_of_ne m c main_arg6 (by decide)).trans <|
    (W1_of m c main_arg6 (by decide)).trans rfl

theorem W8_main_arg7 (c : Dev nD) : W8 m c (Proc.devRef .tc main_arg7) = m ((c : Thread nD τ).loc main_arg7) :=
  (W8_of_ne m c main_arg7 (by decide)).trans <|
    (W7_of m c main_arg7 (by decide)).trans <|
    (W6_in m c 1 rfl).trans <|
    (W5_of m c main_arg7 (by decide)).trans <|
    (W4_of_ne m c main_arg7 (by decide)).trans <|
    (W3_of m c main_arg7 (by decide)).trans <|
    (W2_of_ne m c main_arg7 (by decide)).trans <|
    (W1_of m c main_arg7 (by decide)).trans rfl

theorem W8_main_arg8 (c : Dev nD) : W8 m c (Proc.devRef .tc main_arg8) = m ((c : Thread nD τ).loc main_arg8) :=
  (W8_of_ne m c main_arg8 (by decide)).trans <|
    (W7_of m c main_arg8 (by decide)).trans <|
    (W6_of_ne m c main_arg8 (by decide)).trans <|
    (W5_of m c main_arg8 (by decide)).trans <|
    (W4_of_ne m c main_arg8 (by decide)).trans <|
    (W3_of m c main_arg8 (by decide)).trans <|
    (W2_of_ne m c main_arg8 (by decide)).trans <|
    (W1_of m c main_arg8 (by decide)).trans rfl

theorem W8_main_arg9 (c : Dev nD) : W8 m c (Proc.devRef .tc main_arg9) = m ((c : Thread nD τ).loc main_arg9) :=
  (W8_of_ne m c main_arg9 (by decide)).trans <|
    (W7_of m c main_arg9 (by decide)).trans <|
    (W6_in m c 2 rfl).trans <|
    (W5_of m c main_arg9 (by decide)).trans <|
    (W4_of_ne m c main_arg9 (by decide)).trans <|
    (W3_of m c main_arg9 (by decide)).trans <|
    (W2_of_ne m c main_arg9 (by decide)).trans <|
    (W1_of m c main_arg9 (by decide)).trans rfl

theorem W8_main_arg10 (c : Dev nD) : W8 m c (Proc.devRef .tc main_arg10) = m ((c : Thread nD τ).loc main_arg10) :=
  (W8_in m c 1 rfl).trans <|
    (W7_of m c main_arg10 (by decide)).trans <|
    (W6_of_ne m c main_arg10 (by decide)).trans <|
    (W5_of m c main_arg10 (by decide)).trans <|
    (W4_of_ne m c main_arg10 (by decide)).trans <|
    (W3_of m c main_arg10 (by decide)).trans <|
    (W2_of_ne m c main_arg10 (by decide)).trans <|
    (W1_of m c main_arg10 (by decide)).trans rfl

theorem W8_main_arg11 (c : Dev nD) : W8 m c (Proc.devRef .tc main_arg11) = m ((c : Thread nD τ).loc main_arg11) :=
  (W8_of_ne m c main_arg11 (by decide)).trans <|
    (W7_of m c main_arg11 (by decide)).trans <|
    (W6_of_ne m c main_arg11 (by decide)).trans <|
    (W5_of m c main_arg11 (by decide)).trans <|
    (W4_of_ne m c main_arg11 (by decide)).trans <|
    (W3_of m c main_arg11 (by decide)).trans <|
    (W2_of_ne m c main_arg11 (by decide)).trans <|
    (W1_of m c main_arg11 (by decide)).trans rfl

theorem W8_main_arg12 (c : Dev nD) : W8 m c (Proc.devRef .tc main_arg12) = m ((c : Thread nD τ).loc main_arg12) :=
  (W8_in m c 2 rfl).trans <|
    (W7_of m c main_arg12 (by decide)).trans <|
    (W6_of_ne m c main_arg12 (by decide)).trans <|
    (W5_of m c main_arg12 (by decide)).trans <|
    (W4_of_ne m c main_arg12 (by decide)).trans <|
    (W3_of m c main_arg12 (by decide)).trans <|
    (W2_of_ne m c main_arg12 (by decide)).trans <|
    (W1_of m c main_arg12 (by decide)).trans rfl

/-- The last region's output array is the program's result. -/
theorem W8_out (c : Dev nD) : W8 m c (Proc.devRef .tc main_v7) = (L3.dat (V7 m) c).arrAt 4 cfg3.N := W8_arr m c 4

theorem V1_x (c : Dev nD) : V1 m c main_arg0 = m ((c : Thread nD τ).loc main_arg0) :=
  (W1_of m c main_arg0 (by decide)).trans rfl
theorem V1_w (c : Dev nD) : V1 m c main_arg1 = m ((c : Thread nD τ).loc main_arg1) :=
  (W1_of m c main_arg1 (by decide)).trans rfl
theorem V1_mask (c : Dev nD) : V1 m c main_arg3 = m ((c : Thread nD τ).loc main_arg3) :=
  (W1_of m c main_arg3 (by decide)).trans rfl
/-- The bias row region 0 reads is the launch's bias vector laid out as a row. -/
theorem V1_bias (c : Dev nD) :
    V1 m c main_v0 = shapeCast S1x8192 (m ((c : Thread nD τ).loc main_arg2)) shapeCasts_S8192_S1x8192 := by
  have e : W0 m c (Proc.devRef .tc main_arg2) = m ((c : Thread nD τ).loc main_arg2) :=
     rfl
  show StableHlo.after hostOps0 (W0 m c) (Proc.devRef .tc main_v0) = _
  after_results
  rw [e]
  rfl

theorem V3_x (c : Dev nD) : V3 m c main_v1 = (L0.dat (V1 m) c).arrAt 4 cfg0.N :=
  (W3_of m c main_v1 (by decide)).trans (W2_arr m c 4)
theorem V3_w (c : Dev nD) : V3 m c main_arg4 = m ((c : Thread nD τ).loc main_arg4) :=
  (W3_of m c main_arg4 (by decide)).trans <|
    (W2_of_ne m c main_arg4 (by decide)).trans <|
    (W1_of m c main_arg4 (by decide)).trans rfl
theorem V3_mask (c : Dev nD) : V3 m c main_arg6 = m ((c : Thread nD τ).loc main_arg6) :=
  (W3_of m c main_arg6 (by decide)).trans <|
    (W2_of_ne m c main_arg6 (by decide)).trans <|
    (W1_of m c main_arg6 (by decide)).trans rfl
/-- The bias row region 1 reads is the launch's bias vector laid out as a row. -/
theorem V3_bias (c : Dev nD) :
    V3 m c main_v2 = shapeCast S1x8192 (m ((c : Thread nD τ).loc main_arg5)) shapeCasts_S8192_S1x8192 := by
  have e : W2 m c (Proc.devRef .tc main_arg5) = m ((c : Thread nD τ).loc main_arg5) :=
    (W2_of_ne m c main_arg5 (by decide)).trans <|
    (W1_of m c main_arg5 (by decide)).trans rfl
  show StableHlo.after hostOps1 (W2 m c) (Proc.devRef .tc main_v2) = _
  after_results
  rw [e]
  rfl

theorem V5_x (c : Dev nD) : V5 m c main_v3 = (L1.dat (V3 m) c).arrAt 4 cfg1.N :=
  (W5_of m c main_v3 (by decide)).trans (W4_arr m c 4)
theorem V5_w (c : Dev nD) : V5 m c main_arg7 = m ((c : Thread nD τ).loc main_arg7) :=
  (W5_of m c main_arg7 (by decide)).trans <|
    (W4_of_ne m c main_arg7 (by decide)).trans <|
    (W3_of m c main_arg7 (by decide)).trans <|
    (W2_of_ne m c main_arg7 (by decide)).trans <|
    (W1_of m c main_arg7 (by decide)).trans rfl
theorem V5_mask (c : Dev nD) : V5 m c main_arg9 = m ((c : Thread nD τ).loc main_arg9) :=
  (W5_of m c main_arg9 (by decide)).trans <|
    (W4_of_ne m c main_arg9 (by decide)).trans <|
    (W3_of m c main_arg9 (by decide)).trans <|
    (W2_of_ne m c main_arg9 (by decide)).trans <|
    (W1_of m c main_arg9 (by decide)).trans rfl
/-- The bias row region 2 reads is the launch's bias vector laid out as a row. -/
theorem V5_bias (c : Dev nD) :
    V5 m c main_v4 = shapeCast S1x4096 (m ((c : Thread nD τ).loc main_arg8)) shapeCasts_S4096_S1x4096 := by
  have e : W4 m c (Proc.devRef .tc main_arg8) = m ((c : Thread nD τ).loc main_arg8) :=
    (W4_of_ne m c main_arg8 (by decide)).trans <|
    (W3_of m c main_arg8 (by decide)).trans <|
    (W2_of_ne m c main_arg8 (by decide)).trans <|
    (W1_of m c main_arg8 (by decide)).trans rfl
  show StableHlo.after hostOps2 (W4 m c) (Proc.devRef .tc main_v4) = _
  after_results
  rw [e]
  rfl

theorem V7_x (c : Dev nD) : V7 m c main_v5 = (L2.dat (V5 m) c).arrAt 4 cfg2.N :=
  (W7_of m c main_v5 (by decide)).trans (W6_arr m c 4)
theorem V7_w (c : Dev nD) : V7 m c main_arg10 = m ((c : Thread nD τ).loc main_arg10) :=
  (W7_of m c main_arg10 (by decide)).trans <|
    (W6_of_ne m c main_arg10 (by decide)).trans <|
    (W5_of m c main_arg10 (by decide)).trans <|
    (W4_of_ne m c main_arg10 (by decide)).trans <|
    (W3_of m c main_arg10 (by decide)).trans <|
    (W2_of_ne m c main_arg10 (by decide)).trans <|
    (W1_of m c main_arg10 (by decide)).trans rfl
theorem V7_mask (c : Dev nD) : V7 m c main_arg12 = m ((c : Thread nD τ).loc main_arg12) :=
  (W7_of m c main_arg12 (by decide)).trans <|
    (W6_of_ne m c main_arg12 (by decide)).trans <|
    (W5_of m c main_arg12 (by decide)).trans <|
    (W4_of_ne m c main_arg12 (by decide)).trans <|
    (W3_of m c main_arg12 (by decide)).trans <|
    (W2_of_ne m c main_arg12 (by decide)).trans <|
    (W1_of m c main_arg12 (by decide)).trans rfl
/-- The bias row region 3 reads is the launch's bias vector laid out as a row. -/
theorem V7_bias (c : Dev nD) :
    V7 m c main_v6 = shapeCast S1x1024 (m ((c : Thread nD τ).loc main_arg11)) shapeCasts_S1024_S1x1024 := by
  have e : W6 m c (Proc.devRef .tc main_arg11) = m ((c : Thread nD τ).loc main_arg11) :=
    (W6_of_ne m c main_arg11 (by decide)).trans <|
    (W5_of m c main_arg11 (by decide)).trans <|
    (W4_of_ne m c main_arg11 (by decide)).trans <|
    (W3_of m c main_arg11 (by decide)).trans <|
    (W2_of_ne m c main_arg11 (by decide)).trans <|
    (W1_of m c main_arg11 (by decide)).trans rfl
  show StableHlo.after hostOps3 (W6 m c) (Proc.devRef .tc main_v6) = _
  after_results
  rw [e]
  rfl

/-! ## The frame -/

/-- From any memory with zero counters every weakly fair execution of the program terminates, nothing faulting, and
    every final state has the thirteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c)⟩)
    (run_all m ρ)

end Cert.KernelIdeal.Net

end
-- ==== Proof.KernelIdeal.Payloads.lean ====
/-
  What each layer's kernel stores, read at one index at the ideal values. A layer's kernel stores three values: the
  zero block that clears the accumulator at the first k step; the accumulator plus the product of the x block with
  the transposed masked weight block, at every k step; and, at the last k step, the accumulator plus the bias row,
  clamped at zero in layers 0, 1 and 2 and left as it is in layer 3. At the ideal values a float is an extended real,
  the conversions to and from bf16 are the identity, the elementwise operations are pointwise, and the matrix
  product into a zero block is the plain sum of products over the contracted axis. Both operands of the product are
  contracted on their second axis: out[r, n] = sum over q of lhs[r, q] * rhs[n, q].
-/
import proofs.«155488_j45518063403493_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Idealize.ShloMosaic Idealize.ShloMosaic.ValueIdx Cert.KernelIdeal Cert.KernelIdeal.Gen

/-! ## The product's operand indices, axis by axis -/

/-- The left operand's row is the output's row. -/
theorem lhs_dot_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left operand's column is the contraction position. -/
theorem lhs_dot_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right operand's row is the output's column. -/
theorem rhs_dot_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right operand's column is the contraction position. -/
theorem rhs_dot_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product into a zero block, at (r, n): the sum over q of lhs[r, q] * rhs[n, q]. -/
theorem matmul_zero_apply (l m : FVec Ideal S1024x512 .bf16) (r n : Fin 1024) :
    matmul (F := Ideal) dot_S1024x512_S1024x512_S1024x1024_1_1_0_0_n_n none l m (constant S1024x1024 .f32 0x00000000#32) (ix2 r n)
      = ∑ q : Fin 512, l (ix2 r q) * m (ix2 n q) := by
  show FloatOps.matmul dot_S1024x512_S1024x512_S1024x1024_1_1_0_0_n_n none l m (constant S1024x1024 .f32 0x00000000#32) (ix2 r n) = _
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 r n) ((contrEquiv1 dot_S1024x512_S1024x512_S1024x1024_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S1024x512_S1024x512_S1024x1024_1_1_0_0_n_n.rhsIdx (ix2 r n) ((contrEquiv1 dot_S1024x512_S1024x512_S1024x1024_1_1_0_0_n_n 512 rfl rfl).symm k) = ix2 n k := funext fun a => Fin.ext (by
    match a with
    | ⟨0, _⟩ => exact rhs_dot_0 _ _
    | ⟨1, _⟩ => exact (rhs_dot_1 _ _).trans hk)
  rw [el, er]

/-- The bias row broadcast over the rows, at (r, n): the row's element n. -/
theorem bias_apply (b : Vec Ideal S1x1024 .f32) (r n : Fin 1024) :
    broadcastTo S1024x1024 (shapeCast S1x1024 b shapeCasts_S1x1024_S1x1024) broadcasts_S1x1024_S1024x1024 (ix2 r n)
      = b (ix2 0 n) := by
  rw [shapeCast_self]
  exact broadcastTo_apply b broadcasts_S1x1024_S1024x1024 (ix2 r n) (ix2 0 n) (fun a => match a with
    | ⟨0, _⟩ => by show 0 = if (1 : Nat) = 1 then 0 else r.val; rw [if_pos rfl]
    | ⟨1, _⟩ => by show n.val = if (1024 : Nat) = 1 then 0 else n.val; rw [if_neg (by decide)])

/-! ## Layer 0 -/

/-- The block that clears the accumulator is zero everywhere. -/
theorem pay1_L0 (j : S1024x1024.Idx) : (k0_pay1 (F := Ideal)) j = 0 := by
  show shapeCast S1024x1024 (broadcast S1024x1024 (Scalar.ofBits (F := Ideal) .f32 0x00000000#32)) shapeCasts_S1024x1024_S1024x1024 j = 0
  rw [shapeCast_self]
  exact Ideal.ofBits_zero_f32

/-- A k step's store, at (r, n): the accumulator plus the sum over q of x[r, q] * (w[n, q] * mask[n, q]). -/
theorem pay2_L0 (x w mk : Vec Ideal S1024x512 .f32) (acc : Vec Ideal S1024x1024 .f32) (r n : Fin 1024) :
    k0_pay2 x w mk acc (ix2 r n) = acc (ix2 r n) + ∑ q : Fin 512, x (ix2 r q) * (w (ix2 n q) * mk (ix2 n q)) := by
  show shapeCast S1024x1024 (addf (F := Ideal) (φ := .f32) acc (matmul dot_S1024x512_S1024x512_S1024x1024_1_1_0_0_n_n none
      (truncf (F := Ideal) (φ := .f32) .bf16 x bitsLt_bf16_f32) (truncf .bf16 (mulf (F := Ideal) (φ := .f32) w mk) bitsLt_bf16_f32)
      (constant S1024x1024 .f32 0x00000000#32))) shapeCasts_S1024x1024_S1024x1024 (ix2 r n) = _
  rw [shapeCast_self, addf_apply, matmul_zero_apply]
  rfl

/-- The last k step's store, at (r, n): the accumulator plus the bias row's element n, clamped at zero. -/
theorem pay3_L0 (acc : Vec Ideal S1024x1024 .f32) (b : Vec Ideal S1x1024 .f32) (r n : Fin 1024) :
    k0_pay3 acc b (ix2 r n) = max (acc (ix2 r n) + b (ix2 0 n)) 0 := by
  show maximumf (F := Ideal) (φ := .f32) (addf (F := Ideal) (φ := .f32) acc (broadcastTo S1024x1024 (shapeCast S1x1024 b shapeCasts_S1x1024_S1x1024) broadcasts_S1x1024_S1024x1024)) (broadcast S1024x1024 (Scalar.ofBits (F := Ideal) .f32 0x00000000#32)) (ix2 r n) = _
  rw [maximumf_apply, addf_apply, bias_apply]
  exact congrArg (max _) Ideal.ofBits_zero_f32

/-! ## Layer 1 -/

/-- The block that clears the accumulator is zero everywhere. -/
theorem pay1_L1 (j : S1024x1024.Idx) : (k1_pay1 (F := Ideal)) j = 0 := by
  show shapeCast S1024x1024 (broadcast S1024x1024 (Scalar.ofBits (F := Ideal) .f32 0x00000000#32)) shapeCasts_S1024x1024_S1024x1024 j = 0
  rw [shapeCast_self]
  exact Ideal.ofBits_zero_f32

/-- A k step's store, at (r, n): the accumulator plus the sum over q of x[r, q] * (w[n, q] * mask[n, q]). -/
theorem pay2_L1 (x w mk : Vec Ideal S1024x512 .f32) (acc : Vec Ideal S1024x1024 .f32) (r n : Fin 1024) :
    k1_pay2 x w mk acc (ix2 r n) = acc (ix2 r n) + ∑ q : Fin 512, x (ix2 r q) * (w (ix2 n q) * mk (ix2 n q)) := by
  show shapeCast S1024x1024 (addf (F := Ideal) (φ := .f32) acc (matmul dot_S1024x512_S1024x512_S1024x1024_1_1_0_0_n_n none
      (truncf (F := Ideal) (φ := .f32) .bf16 (shapeCast S1024x512 x shapeCasts_S1024x512_S1024x512) bitsLt_bf16_f32) (truncf .bf16 (mulf (F := Ideal) (φ := .f32) w mk) bitsLt_bf16_f32)
      (constant S1024x1024 .f32 0x00000000#32))) shapeCasts_S1024x1024_S1024x1024 (ix2 r n) = _
  rw [shapeCast_self, addf_apply, matmul_zero_apply, shapeCast_self]
  rfl

/-- The last k step's store, at (r, n): the accumulator plus the bias row's element n, clamped at zero. -/
theorem pay3_L1 (acc : Vec Ideal S1024x1024 .f32) (b : Vec Ideal S1x1024 .f32) (r n : Fin 1024) :
    k1_pay3 acc b (ix2 r n) = max (acc (ix2 r n) + b (ix2 0 n)) 0 := by
  show maximumf (F := Ideal) (φ := .f32) (addf (F := Ideal) (φ := .f32) acc (broadcastTo S1024x1024 (shapeCast S1x1024 b shapeCasts_S1x1024_S1x1024) broadcasts_S1x1024_S1024x1024)) (broadcast S1024x1024 (Scalar.ofBits (F := Ideal) .f32 0x00000000#32)) (ix2 r n) = _
  rw [maximumf_apply, addf_apply, bias_apply]
  exact congrArg (max _) Ideal.ofBits_zero_f32

/-! ## Layer 2 -/

/-- The block that clears the accumulator is zero everywhere. -/
theorem pay1_L2 (j : S1024x1024.Idx) : (k2_pay1 (F := Ideal)) j = 0 := by
  show shapeCast S1024x1024 (broadcast S1024x1024 (Scalar.ofBits (F := Ideal) .f32 0x00000000#32)) shapeCasts_S1024x1024_S1024x1024 j = 0
  rw [shapeCast_self]
  exact Ideal.ofBits_zero_f32

/-- A k step's store, at (r, n): the accumulator plus the sum over q of x[r, q] * (w[n, q] * mask[n, q]). -/
theorem pay2_L2 (x w mk : Vec Ideal S1024x512 .f32) (acc : Vec Ideal S1024x1024 .f32) (r n : Fin 1024) :
    k2_pay2 x w mk acc (ix2 r n) = acc (ix2 r n) + ∑ q : Fin 512, x (ix2 r q) * (w (ix2 n q) * mk (ix2 n q)) := by
  show shapeCast S1024x1024 (addf (F := Ideal) (φ := .f32) acc (matmul dot_S1024x512_S1024x512_S1024x1024_1_1_0_0_n_n none
      (truncf (F := Ideal) (φ := .f32) .bf16 (shapeCast S1024x512 x shapeCasts_S1024x512_S1024x512) bitsLt_bf16_f32) (truncf .bf16 (mulf (F := Ideal) (φ := .f32) w mk) bitsLt_bf16_f32)
      (constant S1024x1024 .f32 0x00000000#32))) shapeCasts_S1024x1024_S1024x1024 (ix2 r n) = _
  rw [shapeCast_self, addf_apply, matmul_zero_apply, shapeCast_self]
  rfl

/-- The last k step's store, at (r, n): the accumulator plus the bias row's element n, clamped at zero. -/
theorem pay3_L2 (acc : Vec Ideal S1024x1024 .f32) (b : Vec Ideal S1x1024 .f32) (r n : Fin 1024) :
    k2_pay3 acc b (ix2 r n) = max (acc (ix2 r n) + b (ix2 0 n)) 0 := by
  show maximumf (F := Ideal) (φ := .f32) (addf (F := Ideal) (φ := .f32) acc (broadcastTo S1024x1024 (shapeCast S1x1024 b shapeCasts_S1x1024_S1x1024) broadcasts_S1x1024_S1024x1024)) (broadcast S1024x1024 (Scalar.ofBits (F := Ideal) .f32 0x00000000#32)) (ix2 r n) = _
  rw [maximumf_apply, addf_apply, bias_apply]
  exact congrArg (max _) Ideal.ofBits_zero_f32

/-! ## Layer 3 -/

/-- The block that clears the accumulator is zero everywhere. -/
theorem pay1_L3 (j : S1024x1024.Idx) : (k3_pay1 (F := Ideal)) j = 0 := by
  show shapeCast S1024x1024 (broadcast S1024x1024 (Scalar.ofBits (F := Ideal) .f32 0x00000000#32)) shapeCasts_S1024x1024_S1024x1024 j = 0
  rw [shapeCast_self]
  exact Ideal.ofBits_zero_f32

/-- A k step's store, at (r, n): the accumulator plus the sum over q of x[r, q] * (w[n, q] * mask[n, q]). -/
theorem pay2_L3 (x w mk : Vec Ideal S1024x512 .f32) (acc : Vec Ideal S1024x1024 .f32) (r n : Fin 1024) :
    k3_pay2 x w mk acc (ix2 r n) = acc (ix2 r n) + ∑ q : Fin 512, x (ix2 r q) * (w (ix2 n q) * mk (ix2 n q)) := by
  show shapeCast S1024x1024 (addf (F := Ideal) (φ := .f32) acc (matmul dot_S1024x512_S1024x512_S1024x1024_1_1_0_0_n_n none
      (truncf (F := Ideal) (φ := .f32) .bf16 (shapeCast S1024x512 x shapeCasts_S1024x512_S1024x512) bitsLt_bf16_f32) (truncf .bf16 (mulf (F := Ideal) (φ := .f32) w mk) bitsLt_bf16_f32)
      (constant S1024x1024 .f32 0x00000000#32))) shapeCasts_S1024x1024_S1024x1024 (ix2 r n) = _
  rw [shapeCast_self, addf_apply, matmul_zero_apply, shapeCast_self]
  rfl

/-- The last k step's store, at (r, n): the accumulator plus the bias row's element n, not clamped. -/
theorem pay3_L3 (acc : Vec Ideal S1024x1024 .f32) (b : Vec Ideal S1x1024 .f32) (r n : Fin 1024) :
    k3_pay3 acc b (ix2 r n) = acc (ix2 r n) + b (ix2 0 n) := by
  show addf (F := Ideal) (φ := .f32) acc (broadcastTo S1024x1024 (shapeCast S1x1024 b shapeCasts_S1x1024_S1x1024) broadcasts_S1x1024_S1024x1024) (ix2 r n) = _
  rw [addf_apply, bias_apply]

end Cert.KernelIdeal.Payloads

end
-- ==== Proof.Spec.lean ====
/-
  The masked MLP over the extended reals, index by index.

  One layer sends an activation matrix x (rows: batch, columns: fan-in), a weight matrix W and a mask M (rows: fan-out,
  columns: fan-in) and a bias vector b to the matrix whose entry (r, n) is
      sum over k of x[r, k] * (W[n, k] * M[n, k])  +  b[n],
  clamped below at zero in every layer but the last. Four layers are composed.
-/
import Idealize.ShloMosaic.PureOps.Ideal
import Idealize.ShloMosaic.Lib.ValueIdx

noncomputable section

namespace Cert.Spec

open Idealize.ShloMosaic Idealize.ShloMosaic.ValueIdx

/-- Entry (r, n) of one masked linear layer before the clamp. -/
def lin {B N K : ℕ} (x : (⟨2, ![B, K]⟩ : Shape).Idx → EReal) (W M : (⟨2, ![N, K]⟩ : Shape).Idx → EReal)
    (b : (⟨1, ![N]⟩ : Shape).Idx → EReal) (r : Fin B) (n : Fin N) : EReal :=
  (∑ k : Fin K, x (ix2 r k) * (W (ix2 n k) * M (ix2 n k))) + b (ix1 n)

/-- A layer without the clamp (the last one). -/
def layer {B N K : ℕ} (x : (⟨2, ![B, K]⟩ : Shape).Idx → EReal) (W M : (⟨2, ![N, K]⟩ : Shape).Idx → EReal)
    (b : (⟨1, ![N]⟩ : Shape).Idx → EReal) : (⟨2, ![B, N]⟩ : Shape).Idx → EReal :=
  fun j => lin x W M b (j 0) (j 1)

/-- A layer with the clamp at zero. -/
def layerRelu {B N K : ℕ} (x : (⟨2, ![B, K]⟩ : Shape).Idx → EReal) (W M : (⟨2, ![N, K]⟩ : Shape).Idx → EReal)
    (b : (⟨1, ![N]⟩ : Shape).Idx → EReal) : (⟨2, ![B, N]⟩ : Shape).Idx → EReal :=
  fun j => max (lin x W M b (j 0) (j 1)) 0

theorem layer_apply {B N K : ℕ} (x : (⟨2, ![B, K]⟩ : Shape).Idx → EReal) (W M : (⟨2, ![N, K]⟩ : Shape).Idx → EReal)
    (b : (⟨1, ![N]⟩ : Shape).Idx → EReal) (r : Fin B) (n : Fin N) : layer x W M b (ix2 r n) = lin x W M b r n := rfl

theorem layerRelu_apply {B N K : ℕ} (x : (⟨2, ![B, K]⟩ : Shape).Idx → EReal) (W M : (⟨2, ![N, K]⟩ : Shape).Idx → EReal)
    (b : (⟨1, ![N]⟩ : Shape).Idx → EReal) (r : Fin B) (n : Fin N) :
    layerRelu x W M b (ix2 r n) = max (lin x W M b r n) 0 := rfl

/-- The whole network: three clamped layers and a last plain one. -/
def mlp (x : (⟨2, ![8192, 4096]⟩ : Shape).Idx → EReal)
    (W0 M0 : (⟨2, ![8192, 4096]⟩ : Shape).Idx → EReal) (b0 : (⟨1, ![8192]⟩ : Shape).Idx → EReal)
    (W1 M1 : (⟨2, ![8192, 8192]⟩ : Shape).Idx → EReal) (b1 : (⟨1, ![8192]⟩ : Shape).Idx → EReal)
    (W2 M2 : (⟨2, ![4096, 8192]⟩ : Shape).Idx → EReal) (b2 : (⟨1, ![4096]⟩ : Shape).Idx → EReal)
    (W3 M3 : (⟨2, ![1024, 4096]⟩ : Shape).Idx → EReal) (b3 : (⟨1, ![1024]⟩ : Shape).Idx → EReal) :
    (⟨2, ![8192, 1024]⟩ : Shape).Idx → EReal :=
  layer (layerRelu (layerRelu (layerRelu x W0 M0 b0) W1 M1 b1) W2 M2 b2) W3 M3 b3

end Cert.Spec

end
-- ==== Proof.KernelIdeal.L0.Value.lean ====
/-
  Layer 0 of the masked MLP at the ideal values: what the layer's output array holds after its kernel region.
  The grid is (row tile i, column tile j, k step kk) with 8 k steps to a tile; the point at position t has
  i = t / 64, j = t / 8 % 8, kk = t % 8. At point t the kernel reads rows 1024 i .. 1024 i + 1023 and columns
  512 kk .. 512 kk + 511 of x, rows 1024 j .. and the same columns of the weight and of the mask, and entries
  1024 j .. of the bias row. After the k step kk of a tile the accumulator's entry (r, n) is the sum over the first
  512 (kk + 1) columns k of x[1024 i + r, k] * (W[1024 j + n, k] * M[1024 j + n, k]); after the last k step this is the
  whole sum over the 4096 columns, and the tile written back is that sum plus the bias, clamped at zero: the
  tile (i, j) of one masked linear layer of the arrays. The 64 tiles written back cover the output array.
-/
import proofs.«155488_j45518063403493_1_alg».proof.Proof.KernelIdeal.L0.Dat
import proofs.«155488_j45518063403493_1_alg».proof.Proof.KernelIdeal.Payloads
import proofs.«155488_j45518063403493_1_alg».proof.Proof.Spec
import Idealize.ShloMosaic.Lib.Pipeline.Value
import Idealize.ShloMosaic.Lib.ValueIdx
import Mathlib.Algebra.BigOperators.Fin
import Mathlib.Algebra.BigOperators.Intervals

set_option maxRecDepth 16384

noncomputable section

namespace Cert.KernelIdeal.L0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.Payloads
open scoped BigOperators

/-! ## Sums over consecutive blocks -/

/-- A sum over the first m * n naturals is the sum, block by block, of the n blocks of m consecutive naturals. -/
theorem sum_range_blocks {M : Type*} [AddCommMonoid M] (f : ℕ → M) (m : ℕ) :
    ∀ n : ℕ, ∑ k ∈ Finset.range (m * n), f k = ∑ s ∈ Finset.range n, ∑ q ∈ Finset.range m, f (m * s + q)
  | 0 => by rw [Nat.mul_zero, Finset.sum_range_zero, Finset.sum_range_zero]
  | n + 1 => by
    rw [Nat.mul_succ, Finset.sum_range_add, sum_range_blocks f m n, Finset.sum_range_succ]

/-- The same with the whole sum and the inner sums over the finite types. -/
theorem sum_fin_blocks {M : Type*} [AddCommMonoid M] (f : ℕ → M) (m n N : ℕ) (hN : N = m * n) :
    ∑ k : Fin N, f k.val = ∑ s ∈ Finset.range n, ∑ q : Fin m, f (m * s + q.val) := by
  subst hN
  rw [Fin.sum_univ_eq_sum_range f (m * n), sum_range_blocks f m n]
  exact Finset.sum_congr rfl fun s _ => (Fin.sum_univ_eq_sum_range (fun q => f (m * s + q)) m).symm

variable (V : (c : Dev nD) → (b : Ref sig .tc) → Buf (Elt Ideal) ((c : Thread nD τ).loc b))

/-! ## The arrays the region finds -/

/-- The activation matrix x, the weight W, the mask M and the bias row, as the region finds them. -/
abbrev xA (c : Dev nD) : Vec Ideal S8192x4096 .f32 := V c main_arg0
abbrev wA (c : Dev nD) : Vec Ideal S8192x4096 .f32 := V c main_arg1
abbrev kA (c : Dev nD) : Vec Ideal S8192x4096 .f32 := V c main_arg3
abbrev bA (c : Dev nD) : Vec Ideal S1x8192 .f32 := V c main_v0

/-! ## The index maps over the grid -/

/-- The printed index maps in terms of the position t = (i * 8 + j) * 8 + kk: x's block is (i, kk), the weight's and the
    mask's (j, kk), the bias row's (0, j), the output's (i, j). -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 8 % 8 ∧ win0_2.index t (1 : Fin 2) = t.val % 8
    ∧ win0_3.index t (0 : Fin 2) = 0 ∧ win0_3.index t (1 : Fin 2) = t.val / 8 % 8
    ∧ win0_4.index t (0 : Fin 2) = t.val / 64 ∧ win0_4.index t (1 : Fin 2) = t.val / 8 % 8 :=
  (by decide +kernel : ∀ t : Fin grid0.N, _)

/-! ## The blocks read off the arrays -/

/-- Entry (r, q) of x's block at point t is x at row 1024 i + r, column 512 kk + q. -/
theorem xB_apply (c : Dev nD) (t : Fin cfg0.N) (r : Fin 1024) (q : Fin 512) (R : Fin 8192) (k : Fin 4096)
    (hR : R.val = 1024 * (t.val / 64) + r.val) (hk : k.val = 512 * (t.val % 8) + q.val) :
    xB (F := Ideal) V c t (ix2 r q) = xA V c (ix2 R k) := by
  obtain ⟨e0, e1, -⟩ := idx_facts t
  unfold xB iblk
  rw [View.read_apply]
  show V c main_arg0 _ = V c main_arg0 _
  congr 1
  funext a
  apply Fin.ext
  match a with
  | ⟨0, _⟩ => show win0_0.index t 0 * 1024 + 1 * r.val = R.val; rw [e0, hR]; omega
  | ⟨1, _⟩ => show win0_0.index t 1 * 512 + 1 * q.val = k.val; rw [e1, hk]; omega

/-- Entry (n, q) of the weight's block at point t is W at row 1024 j + n, column 512 kk + q. -/
theorem wB_apply (c : Dev nD) (t : Fin cfg0.N) (n : Fin 1024) (q : Fin 512) (C : Fin 8192) (k : Fin 4096)
    (hC : C.val = 1024 * (t.val / 8 % 8) + n.val) (hk : k.val = 512 * (t.val % 8) + q.val) :
    wB (F := Ideal) V c t (ix2 n q) = wA V c (ix2 C k) := by
  obtain ⟨-, -, e2, e3, -⟩ := idx_facts t
  unfold wB iblk
  rw [View.read_apply]
  show V c main_arg1 _ = V c main_arg1 _
  congr 1
  funext a
  apply Fin.ext
  match a with
  | ⟨0, _⟩ => show win0_1.index t 0 * 1024 + 1 * n.val = C.val; rw [e2, hC]; omega
  | ⟨1, _⟩ => show win0_1.index t 1 * 512 + 1 * q.val = k.val; rw [e3, hk]; omega

/-- Entry (n, q) of the mask's block at point t is M at row 1024 j + n, column 512 kk + q. -/
theorem kB_apply (c : Dev nD) (t : Fin cfg0.N) (n : Fin 1024) (q : Fin 512) (C : Fin 8192) (k : Fin 4096)
    (hC : C.val = 1024 * (t.val / 8 % 8) + n.val) (hk : k.val = 512 * (t.val % 8) + q.val) :
    kB (F := Ideal) V c t (ix2 n q) = kA V c (ix2 C k) := by
  obtain ⟨-, -, -, -, e4, e5, -⟩ := idx_facts t
  unfold kB iblk
  rw [View.read_apply]
  show V c main_arg3 _ = V c main_arg3 _
  congr 1
  funext a
  apply Fin.ext
  match a with
  | ⟨0, _⟩ => show win0_2.index t 0 * 1024 + 1 * n.val = C.val; rw [e4, hC]; omega
  | ⟨1, _⟩ => show win0_2.index t 1 * 512 + 1 * q.val = k.val; rw [e5, hk]; omega

/-- Entry n of the bias row's block at point t is the bias at 1024 j + n. -/
theorem bB_apply (c : Dev nD) (t : Fin cfg0.N) (n : Fin 1024) (C : Fin 8192)
    (hC : C.val = 1024 * (t.val / 8 % 8) + n.val) :
    bB (F := Ideal) V c t (ix2 0 n) = bA V c (ix2 0 C) := by
  obtain ⟨-, -, -, -, -, -, e6, e7, -⟩ := idx_facts t
  unfold bB iblk
  rw [View.read_apply]
  show V c main_v0 _ = V c main_v0 _
  congr 1
  funext a
  apply Fin.ext
  match a with
  | ⟨0, _⟩ => show win0_3.index t 0 * 1 + 1 * 0 = 0; rw [e6]
  | ⟨1, _⟩ => show win0_3.index t 1 * 1024 + 1 * n.val = C.val; rw [e7, hC]; omega

/-! ## The accumulator after each k step -/

/-- The product x[R, k] * (W[C, k] * M[C, k]) at natural-number coordinates (zero outside the arrays). -/
def term (c : Dev nD) (R C k : ℕ) : EReal :=
  if h : R < 8192 ∧ C < 8192 ∧ k < 4096 then
    xA V c (ix2 ⟨R, h.1⟩ ⟨k, h.2.2⟩) * (wA V c (ix2 ⟨C, h.2.1⟩ ⟨k, h.2.2⟩) * kA V c (ix2 ⟨C, h.2.1⟩ ⟨k, h.2.2⟩))
  else 0

theorem term_in (c : Dev nD) (R C : Fin 8192) (k : Fin 4096) :
    term V c R.val C.val k.val = xA V c (ix2 R k) * (wA V c (ix2 C k) * kA V c (ix2 C k)) := by
  unfold term
  rw [dif_pos ⟨R.isLt, C.isLt, k.isLt⟩]

/-- The product of the blocks' entries at point t is the product of the arrays' entries at the global coordinates. -/
theorem term_block (c : Dev nD) (t : Fin cfg0.N) (r n : Fin 1024) (q : Fin 512) :
    xB (F := Ideal) V c t (ix2 r q) * (wB (F := Ideal) V c t (ix2 n q) * kB (F := Ideal) V c t (ix2 n q))
      = term V c (1024 * (t.val / 64) + r.val) (1024 * (t.val / 8 % 8) + n.val) (512 * (t.val % 8) + q.val) := by
  have hN : cfg0.N = 512 := N_0
  have ht : t.val < 512 := by have := t.isLt; omega
  have hR : 1024 * (t.val / 64) + r.val < 8192 := by have := r.isLt; omega
  have hC : 1024 * (t.val / 8 % 8) + n.val < 8192 := by have := n.isLt; omega
  have hk : 512 * (t.val % 8) + q.val < 4096 := by have := q.isLt; omega
  unfold term
  rw [dif_pos ⟨hR, hC, hk⟩, xB_apply V c t r q ⟨_, hR⟩ ⟨_, hk⟩ rfl rfl, wB_apply V c t n q ⟨_, hC⟩ ⟨_, hk⟩ rfl rfl,
    kB_apply V c t n q ⟨_, hC⟩ ⟨_, hk⟩ rfl rfl]

/-- The partial sum of a tile after the k step at position m: entry (r, n) summed over the first 512 (m % 8 + 1) columns. -/
def accSum (c : Dev nD) (m : ℕ) (r n : Fin 1024) : EReal :=
  ∑ s ∈ Finset.range (m % 8 + 1), ∑ q : Fin 512,
    term V c (1024 * (m / 64) + r.val) (1024 * (m / 8 % 8) + n.val) (512 * s + q.val)

/-- At a first k step the accumulator is the zero block plus the step's products. -/
theorem acc_first (c : Dev nD) (t : Fin cfg0.N) (h0 : t.val % 8 = 0) (r n : Fin 1024) :
    accAt (F := Ideal) V c t.val t.isLt (ix2 r n) = accSum V c t.val r n := by
  refine (congrFun (accAt_first V c t h0) (ix2 r n)).trans ?_
  refine (pay2_L0 (xB V c t) (wB V c t) (kB V c t) (k0_pay1 (F := Ideal)) r n).trans ?_
  rw [pay1_L0, zero_add]
  unfold accSum
  rw [h0, Finset.sum_range_succ, Finset.sum_range_zero, zero_add]
  refine Finset.sum_congr rfl fun q _ => (term_block V c t r n q).trans ?_
  rw [h0]

/-- At a later k step the accumulator is what the step before left plus the step's products. -/
theorem acc_next (c : Dev nD) (t : Fin cfg0.N) (h0 : ¬t.val % 8 = 0) (r n : Fin 1024)
    (ih : accAt (F := Ideal) V c (t.val - 1) (Nat.lt_of_le_of_lt (Nat.sub_le _ _) t.isLt) (ix2 r n) = accSum V c (t.val - 1) r n) :
    accAt (F := Ideal) V c t.val t.isLt (ix2 r n) = accSum V c t.val r n := by
  refine (congrFun (accAt_next V c t h0) (ix2 r n)).trans ?_
  refine (pay2_L0 (xB V c t) (wB V c t) (kB V c t)
    (accAt V c (t.val - 1) (Nat.lt_of_le_of_lt (Nat.sub_le _ _) t.isLt)) r n).trans ?_
  rw [ih]
  unfold accSum
  have e1 : (t.val - 1) % 8 + 1 = t.val % 8 := by omega
  have e2 : (t.val - 1) / 64 = t.val / 64 := by omega
  have e3 : (t.val - 1) / 8 % 8 = t.val / 8 % 8 := by omega
  rw [e1, e2, e3, Finset.sum_range_succ]
  exact congrArg _ (Finset.sum_congr rfl fun q _ => term_block V c t r n q)

/-- After the k step at position m the accumulator's entry (r, n) is the partial sum. -/
theorem accAt_closed (c : Dev nD) : ∀ (m : ℕ) (hm : m < cfg0.N) (r n : Fin 1024),
    accAt (F := Ideal) V c m hm (ix2 r n) = accSum V c m r n
  | 0, hm, r, n => acc_first V c ⟨0, hm⟩ rfl r n
  | m + 1, hm, r, n => by
    by_cases h0 : (m + 1) % 8 = 0
    · exact acc_first V c ⟨m + 1, hm⟩ h0 r n
    · exact acc_next V c ⟨m + 1, hm⟩ h0 r n (accAt_closed c m (Nat.lt_of_succ_lt hm) r n)

/-- After the last k step of a tile the partial sum is the whole sum over the 4096 columns. -/
theorem accSum_last (c : Dev nD) (m : ℕ) (h7 : m % 8 = 7) (r n : Fin 1024) (R C : Fin 8192)
    (hR : R.val = 1024 * (m / 64) + r.val) (hC : C.val = 1024 * (m / 8 % 8) + n.val) :
    accSum V c m r n = ∑ k : Fin 4096, xA V c (ix2 R k) * (wA V c (ix2 C k) * kA V c (ix2 C k)) := by
  unfold accSum
  rw [h7, ← hR, ← hC]
  refine (sum_fin_blocks (term V c R.val C.val) 512 8 4096 rfl).symm.trans ?_
  exact Finset.sum_congr rfl fun k _ => term_in V c R C k

/-! ## What a tile's last k step writes back, and the array -/

/-- The masked linear layer with the clamp, of the arrays the region finds (the bias as the row the region finds). -/
abbrev G (c : Dev nD) : Vec Ideal S8192x8192 .f32 :=
  Cert.Spec.layerRelu (B := 8192) (N := 8192) (K := 4096) (xA V c) (wA V c) (kA V c) (fun j => bA V c (ix2 0 (j 0)))

/-- Entry (r, n) of the tile after the last k step at position t is the layer's entry at row 1024 i + r, column 1024 j + n. -/
theorem out_last (c : Dev nD) (t : Fin cfg0.N) (h7 : t.val % 8 = 7) (r n : Fin 1024) (R C : Fin 8192)
    (hR : R.val = 1024 * (t.val / 64) + r.val) (hC : C.val = 1024 * (t.val / 8 % 8) + n.val) :
    outAt (F := Ideal) V c t.val t.isLt (ix2 r n) = G V c (ix2 R C) := by
  unfold outAt
  refine (pay3_L0 (accAt V c t.val t.isLt) (bB V c t) r n).trans ?_
  rw [accAt_closed V c t.val t.isLt r n, accSum_last V c t.val h7 r n R C hR hC, bB_apply V c t n C hC]
  rfl

/-- What a flushing point writes back is its block of the layer. -/
theorem flushed_eq (c : Dev nD) (t : Fin cfg0.N) (hf : (cfg0.win 4).flush t = true) :
    (dat (F := Ideal) V c).flushed 4 t = ((cfg0.win 4).blk t).view.read (Elt Ideal) (G V c) := by
  have h7 : t.val % 8 = 7 := (flush0_4 t).mp hf
  have hN : cfg0.N = 512 := N_0
  have ht : t.val < 512 := by have := t.isLt; omega
  obtain ⟨-, -, -, -, -, -, -, -, e8, e9⟩ := idx_facts t
  show (cfg0.win 4).cut (grid0.coords t) ((dat V c).after 4 t) = _
  rw [after_out]
  refine funext fun (y : S1024x1024.Idx) => ?_
  obtain ⟨r, n, rfl⟩ : ∃ (r : Fin 1024) (n : Fin 1024), y = ix2 r n := ⟨y 0, y 1, eq_ix2 y⟩
  have hR : 1024 * (t.val / 64) + r.val < 8192 := by have := r.isLt; omega
  have hC : 1024 * (t.val / 8 % 8) + n.val < 8192 := by have := n.isLt; omega
  rw [View.read_apply]
  show outAt V c t.val t.isLt (fun a => ⟨(ix2 r n a).val, _⟩) = G V c (((cfg0.win 4).blk t).view.emb (ix2 r n))
  have hL : (fun a => ⟨(ix2 r n a).val, (ix2 r n a).isLt⟩ : S1024x1024.Idx) = ix2 r n := rfl
  have hE : ((cfg0.win 4).blk t).view.emb (ix2 r n) = (ix2 ⟨_, hR⟩ ⟨_, hC⟩ : S8192x8192.Idx) := by
    funext a
    apply Fin.ext
    match a with
    | ⟨0, _⟩ => show win0_4.index t 0 * 1024 + 1 * r.val = 1024 * (t.val / 64) + r.val; rw [e8]; omega
    | ⟨1, _⟩ => show win0_4.index t 1 * 1024 + 1 * n.val = 1024 * (t.val / 8 % 8) + n.val; rw [e9]; omega
  rw [hE]
  exact out_last V c t h7 r n ⟨_, hR⟩ ⟨_, hC⟩ rfl rfl

/-- Every index of the output array is in the block some last k step writes back: (R, C) in the tile (R / 1024, C / 1024). -/
theorem cover (i : S8192x8192.Idx) :
    ∃ t : Fin cfg0.N, (cfg0.win 4).flush t = true ∧ i ∈ ((cfg0.win 4).blk t).view.set := by
  have h0 : (i 0).val < 8192 := (i 0).isLt
  have h1 : (i 1).val < 8192 := (i 1).isLt
  have hN : cfg0.N = 512 := N_0
  obtain ⟨t, ht⟩ : ∃ t : Fin cfg0.N, t.val = ((i 0).val / 1024 * 8 + (i 1).val / 1024) * 8 + 7 :=
    ⟨⟨((i 0).val / 1024 * 8 + (i 1).val / 1024) * 8 + 7, by rw [hN]; omega⟩, rfl⟩
  obtain ⟨-, -, -, -, -, -, -, -, e8, e9⟩ := idx_facts t
  refine ⟨t, (flush0_4 t).mpr (by rw [ht]; omega), ?_⟩
  show i ∈ ((View.whole main_v1).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [e8, ht]; omega
  | ⟨1, _⟩ =>
    show win0_4.index t 1 * 1024 ≤ (i 1).val ∧ (i 1).val < win0_4.index t 1 * 1024 + 1024
    rw [e9, ht]; omega

/-- After the region the output array holds the masked linear layer, clamped at zero, of the arrays the region found. -/
theorem final_out (c : Dev nD) :
    (dat (F := Ideal) V c).arrAt 4 cfg0.N
      = Cert.Spec.layerRelu (B := 8192) (N := 8192) (K := 4096) (V c main_arg0) (V c main_arg1) (V c main_arg3)
          (fun j => V c main_v0 (ix2 0 (j 0))) :=
  (dat (F := Ideal) V c).arrAt_eq_of_cover 4 (G V c) (flushed_eq V c) cover

end Cert.KernelIdeal.L0

end
-- ==== Proof.KernelIdeal.L2.Value.lean ====
/-
  Layer 2 of the masked MLP: what the output array holds after the kernel's region, at the ideal values.
  The grid is 8 row tiles by 4 column tiles by 16 k steps; position t is (row tile * 4 + column tile) * 16 + k step. At k
  step kk of a tile the kernel adds to the accumulator, cleared at k step 0, the product of the x block (the row tile's
  rows, columns 512 kk to 512 kk + 511) with the transposed masked weight block (the column tile's rows, the same
  columns); after k step 15 it adds the bias row, clamps at zero and writes the tile back. So after the region entry (R, C) of the output is
      max (sum over k < 8192 of x[R, k] * (W[C, k] * M[C, k]) + b[C]) 0,
  one masked linear layer, clamped at zero, of the arrays the region found. Only 0 + s = s and the re-bracketing of a sum of
  sixteen blocks of 512 into one sum of 8192 are used of the arithmetic: no distributivity.
-/
import proofs.«155488_j45518063403493_1_alg».proof.Proof.KernelIdeal.L2.Dat
import proofs.«155488_j45518063403493_1_alg».proof.Proof.KernelIdeal.Payloads
import proofs.«155488_j45518063403493_1_alg».proof.Proof.Spec
import Idealize.ShloMosaic.Lib.Pipeline.Value
import Idealize.ShloMosaic.Lib.ValueIdx

set_option maxRecDepth 16384

noncomputable section

namespace Cert.KernelIdeal.L2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.Payloads

/-! ## Blocks of a sum -/

section Blocks

variable {M : Type*} [AddCommMonoid M]

/-- The sum over the first kk + 1 blocks of n terms each. -/
def blockSum {n : ℕ} (g : ℕ → Fin n → M) (kk : ℕ) : M := ∑ p ∈ Finset.range (kk + 1), ∑ q : Fin n, g p q

theorem blockSum_zero {n : ℕ} (g : ℕ → Fin n → M) : blockSum g 0 = ∑ q : Fin n, g 0 q := by
  unfold blockSum
  rw [Finset.sum_range_one]

theorem blockSum_succ {n : ℕ} (g : ℕ → Fin n → M) (kk : ℕ) :
    blockSum g (kk + 1) = blockSum g kk + ∑ q : Fin n, g (kk + 1) q := by
  unfold blockSum
  rw [Finset.sum_range_succ]

/-- m + 1 blocks of n terms, block p's term q being term n * p + q of N = (m + 1) * n, make the one sum over N. -/
theorem blockSum_all {m n N : ℕ} (hN : N = (m + 1) * n) (f : Fin N → M) (col : ℕ → Fin n → Fin N)
    (hcol : ∀ (p : ℕ) (q : Fin n), p < m + 1 → (col p q).val = n * p + q.val) :
    blockSum (fun p q => f (col p q)) m = ∑ k : Fin N, f k := by
  subst hN
  unfold blockSum
  rw [Finset.sum_range, ← Equiv.sum_comp finProdFinEquiv f, Fintype.sum_prod_type]
  refine Finset.sum_congr rfl fun p _ => Finset.sum_congr rfl fun q _ => congrArg f (Fin.ext ?_)
  rw [hcol p.val q p.isLt]
  show n * p.val + q.val = q.val + n * p.val
  exact Nat.add_comm _ _

end Blocks

/-! ## The grid and the windows' block indices -/

theorem lt512 {n : ℕ} (h : n < cfg2.N) : n < 512 := by
  have h' : n < grid2.N := h
  rw [N_2] at h'
  exact h'

/-- The printed index maps over the position: the row tile is t / 16 / 4, the column tile t / 16 % 4, the k step t % 16. -/
theorem idx_facts : ∀ t : Fin cfg2.N,
    win2_0.index t (0 : Fin 2) = t.val / 16 / 4 ∧ win2_0.index t (1 : Fin 2) = t.val % 16
    ∧ win2_1.index t (0 : Fin 2) = t.val / 16 % 4 ∧ win2_1.index t (1 : Fin 2) = t.val % 16
    ∧ win2_2.index t (0 : Fin 2) = t.val / 16 % 4 ∧ win2_2.index t (1 : Fin 2) = t.val % 16
    ∧ win2_3.index t (0 : Fin 2) = 0 ∧ win2_3.index t (1 : Fin 2) = t.val / 16 % 4
    ∧ win2_4.index t (0 : Fin 2) = t.val / 16 / 4 ∧ win2_4.index t (1 : Fin 2) = t.val / 16 % 4 :=
  (by decide +kernel : ∀ t : Fin grid2.N, _)

/-- Row r of row tile i, in the x array and in the output. -/
def rowOf (i : ℕ) (r : Fin 1024) : Fin 8192 := ⟨(1024 * i + r.val) % 8192, Nat.mod_lt _ (by decide)⟩
/-- Row m of column tile j in the weight and mask arrays: column 1024 j + m of the output and of the bias row. -/
def outOf (j : ℕ) (m : Fin 1024) : Fin 4096 := ⟨(1024 * j + m.val) % 4096, Nat.mod_lt _ (by decide)⟩
/-- Column q of k step p: column 512 p + q of the x, weight and mask arrays. -/
def colOf (p : ℕ) (q : Fin 512) : Fin 8192 := ⟨(512 * p + q.val) % 8192, Nat.mod_lt _ (by decide)⟩

theorem colOf_val (p : ℕ) (q : Fin 512) (hp : p < 15 + 1) : (colOf p q).val = 512 * p + q.val := by
  have := q.isLt
  show (512 * p + q.val) % 8192 = 512 * p + q.val
  omega

variable (V : (c : Dev nD) → (b : Ref sig .tc) → Buf (Elt Ideal) ((c : Thread nD τ).loc b))

/-! ## The arrays the region finds, and their blocks -/

/-- The x, weight, mask and bias arrays at their literal shapes. -/
abbrev Xarr (c : Dev nD) : (⟨2, ![8192, 8192]⟩ : Shape).Idx → EReal := V c main_v3
abbrev Warr (c : Dev nD) : (⟨2, ![4096, 8192]⟩ : Shape).Idx → EReal := V c main_arg7
abbrev Marr (c : Dev nD) : (⟨2, ![4096, 8192]⟩ : Shape).Idx → EReal := V c main_arg9
abbrev Barr (c : Dev nD) : (⟨2, ![1, 4096]⟩ : Shape).Idx → EReal := V c main_v4

/-- The layer of those arrays: what the output array ends holding. -/
abbrev G (c : Dev nD) : (⟨2, ![8192, 4096]⟩ : Shape).Idx → EReal :=
  Cert.Spec.layerRelu (B := 8192) (N := 4096) (K := 8192) (V c main_v3) (V c main_arg7) (V c main_arg9) (fun j => V c main_v4 (ix2 0 (j 0)))

/-- The x block of position n at (r, q) is x at row r of the row tile, column q of the k step. -/
theorem xB_apply (c : Dev nD) (n : ℕ) (h : n < cfg2.N) (r : Fin 1024) (q : Fin 512) :
    xB V c ⟨n, h⟩ (ix2 r q) = Xarr V c (ix2 (rowOf (n / 16 / 4) r) (colOf (n % 16) q)) := by
  have hn : n < 512 := lt512 h
  have hr := r.isLt
  have hq := q.isLt
  obtain ⟨e0, e1, -⟩ := idx_facts ⟨n, h⟩
  dsimp only at e0 e1
  show ((cfg2.win 0).blk ⟨n, h⟩).view.read (Elt Ideal) (V c (Pipeline.arrRef spec2 0)) (ix2 r q) = _
  rw [View.read_apply]
  show V c main_v3 (((cfg2.win 0).blk ⟨n, h⟩).view.emb (ix2 r q)) = V c main_v3 (ix2 (rowOf (n / 16 / 4) r) (colOf (n % 16) q))
  refine congrArg (V c main_v3) (funext fun a => Fin.ext ?_)
  match a with
  | ⟨0, _⟩ => show win2_0.index ⟨n, h⟩ 0 * 1024 + 1 * r.val = (1024 * (n / 16 / 4) + r.val) % 8192; rw [e0]; omega
  | ⟨1, _⟩ => show win2_0.index ⟨n, h⟩ 1 * 512 + 1 * q.val = (512 * (n % 16) + q.val) % 8192; rw [e1]; omega

/-- The weight block of position n at (m, q) is W at row m of the column tile, column q of the k step. -/
theorem wB_apply (c : Dev nD) (n : ℕ) (h : n < cfg2.N) (m : Fin 1024) (q : Fin 512) :
    wB V c ⟨n, h⟩ (ix2 m q) = Warr V c (ix2 (outOf (n / 16 % 4) m) (colOf (n % 16) q)) := by
  have hn : n < 512 := lt512 h
  have hm := m.isLt
  have hq := q.isLt
  obtain ⟨-, -, e0, e1, -⟩ := idx_facts ⟨n, h⟩
  dsimp only at e0 e1
  show ((cfg2.win 1).blk ⟨n, h⟩).view.read (Elt Ideal) (V c (Pipeline.arrRef spec2 1)) (ix2 m q) = _
  rw [View.read_apply]
  show V c main_arg7 (((cfg2.win 1).blk ⟨n, h⟩).view.emb (ix2 m q)) = V c main_arg7 (ix2 (outOf (n / 16 % 4) m) (colOf (n % 16) q))
  refine congrArg (V c main_arg7) (funext fun a => Fin.ext ?_)
  match a with
  | ⟨0, _⟩ => show win2_1.index ⟨n, h⟩ 0 * 1024 + 1 * m.val = (1024 * (n / 16 % 4) + m.val) % 4096; rw [e0]; omega
  | ⟨1, _⟩ => show win2_1.index ⟨n, h⟩ 1 * 512 + 1 * q.val = (512 * (n % 16) + q.val) % 8192; rw [e1]; omega

/-- The mask block likewise. -/
theorem kB_apply (c : Dev nD) (n : ℕ) (h : n < cfg2.N) (m : Fin 1024) (q : Fin 512) :
    kB V c ⟨n, h⟩ (ix2 m q) = Marr V c (ix2 (outOf (n / 16 % 4) m) (colOf (n % 16) q)) := by
  have hn : n < 512 := lt512 h
  have hm := m.isLt
  have hq := q.isLt
  obtain ⟨-, -, -, -, e0, e1, -⟩ := idx_facts ⟨n, h⟩
  dsimp only at e0 e1
  show ((cfg2.win 2).blk ⟨n, h⟩).view.read (Elt Ideal) (V c (Pipeline.arrRef spec2 2)) (ix2 m q) = _
  rw [View.read_apply]
  show V c main_arg9 (((cfg2.win 2).blk ⟨n, h⟩).view.emb (ix2 m q)) = V c main_arg9 (ix2 (outOf (n / 16 % 4) m) (colOf (n % 16) q))
  refine congrArg (V c main_arg9) (funext fun a => Fin.ext ?_)
  match a with
  | ⟨0, _⟩ => show win2_2.index ⟨n, h⟩ 0 * 1024 + 1 * m.val = (1024 * (n / 16 % 4) + m.val) % 4096; rw [e0]; omega
  | ⟨1, _⟩ => show win2_2.index ⟨n, h⟩ 1 * 512 + 1 * q.val = (512 * (n % 16) + q.val) % 8192; rw [e1]; omega

/-- The bias block of position n at (0, m) is the bias row at column m of the column tile. -/
theorem bB_apply (c : Dev nD) (n : ℕ) (h : n < cfg2.N) (m : Fin 1024) :
    bB V c ⟨n, h⟩ (ix2 0 m) = Barr V c (ix2 0 (outOf (n / 16 % 4) m)) := by
  have hn : n < 512 := lt512 h
  have hm := m.isLt
  obtain ⟨-, -, -, -, -, -, e0, e1, -⟩ := idx_facts ⟨n, h⟩
  dsimp only at e0 e1
  show ((cfg2.win 3).blk ⟨n, h⟩).view.read (Elt Ideal) (V c (Pipeline.arrRef spec2 3)) (ix2 0 m) = _
  rw [View.read_apply]
  show V c main_v4 (((cfg2.win 3).blk ⟨n, h⟩).view.emb (ix2 0 m)) = V c main_v4 (ix2 0 (outOf (n / 16 % 4) m))
  refine congrArg (V c main_v4) (funext fun a => Fin.ext ?_)
  match a with
  | ⟨0, _⟩ => show win2_3.index ⟨n, h⟩ 0 * 1 + 1 * 0 = 0; rw [e0]
  | ⟨1, _⟩ => show win2_3.index ⟨n, h⟩ 1 * 1024 + 1 * m.val = (1024 * (n / 16 % 4) + m.val) % 4096; rw [e1]; omega

/-! ## The accumulator over a tile's k steps -/

/-- One product of the layer's sum: output tile tl (row tile tl / 4, column tile tl % 4), entry (r, m) of the tile, column k. -/
def tm (c : Dev nD) (tl : ℕ) (r m : Fin 1024) (k : Fin 8192) : EReal :=
  Xarr V c (ix2 (rowOf (tl / 4) r) k) * (Warr V c (ix2 (outOf (tl % 4) m) k) * Marr V c (ix2 (outOf (tl % 4) m) k))

/-- What the k step of position n adds at (r, m): the products over the step's 512 columns. -/
theorem step_sum (c : Dev nD) (n : ℕ) (h : n < cfg2.N) (r m : Fin 1024) :
    ∑ q : Fin 512, xB V c ⟨n, h⟩ (ix2 r q) * (wB V c ⟨n, h⟩ (ix2 m q) * kB V c ⟨n, h⟩ (ix2 m q))
      = ∑ q : Fin 512, tm V c (n / 16) r m (colOf (n % 16) q) :=
  Finset.sum_congr rfl fun q _ => by
    rw [xB_apply V c n h r q, wB_apply V c n h m q, kB_apply V c n h m q]
    rfl

/-- At a first k step the accumulator is the step's sum: the zero block plus it. -/
theorem acc_first (c : Dev nD) (n : ℕ) (h : n < cfg2.N) (h0 : n % 16 = 0) (r m : Fin 1024) :
    accAt V c n h (ix2 r m) = ∑ q : Fin 512, tm V c (n / 16) r m (colOf (n % 16) q) := by
  have e : accAt V c n h = k2_pay2 (xB V c ⟨n, h⟩) (wB V c ⟨n, h⟩) (kB V c ⟨n, h⟩) (k2_pay1 (F := Ideal)) :=
    accAt_first V c ⟨n, h⟩ h0
  rw [e]
  refine (pay2_L2 (xB V c ⟨n, h⟩) (wB V c ⟨n, h⟩) (kB V c ⟨n, h⟩) (k2_pay1 (F := Ideal)) r m).trans ?_
  rw [pay1_L2, zero_add]
  exact step_sum V c n h r m

/-- At a later k step it is what the step before left plus the step's sum. -/
theorem acc_next (c : Dev nD) (n : ℕ) (h : n + 1 < cfg2.N) (h0 : ¬(n + 1) % 16 = 0) (r m : Fin 1024) :
    accAt V c (n + 1) h (ix2 r m)
      = accAt V c n (Nat.lt_of_succ_lt h) (ix2 r m) + ∑ q : Fin 512, tm V c ((n + 1) / 16) r m (colOf ((n + 1) % 16) q) := by
  have e : accAt V c (n + 1) h = k2_pay2 (xB V c ⟨n + 1, h⟩) (wB V c ⟨n + 1, h⟩) (kB V c ⟨n + 1, h⟩) (accAt V c n (Nat.lt_of_succ_lt h)) :=
    accAt_next V c ⟨n + 1, h⟩ h0
  rw [e]
  refine (pay2_L2 (xB V c ⟨n + 1, h⟩) (wB V c ⟨n + 1, h⟩) (kB V c ⟨n + 1, h⟩) (accAt V c n (Nat.lt_of_succ_lt h)) r m).trans ?_
  rw [step_sum V c (n + 1) h r m]

/-- The closed form: after k step n % 16 of tile n / 16 the accumulator at (r, m) is the sum of the tile's products over
    the first n % 16 + 1 blocks of 512 columns. By induction on the position. -/
theorem acc_closed (c : Dev nD) (r m : Fin 1024) : ∀ (n : ℕ) (h : n < cfg2.N),
    accAt V c n h (ix2 r m) = blockSum (fun p q => tm V c (n / 16) r m (colOf p q)) (n % 16) := by
  intro n
  induction n with
  | zero =>
    intro h
    rw [acc_first V c 0 h (Nat.zero_mod 16) r m]
    exact (blockSum_zero (fun p q => tm V c (0 / 16) r m (colOf p q))).symm
  | succ n ih =>
    intro h
    by_cases h0 : (n + 1) % 16 = 0
    · rw [acc_first V c (n + 1) h h0 r m, h0]
      exact (blockSum_zero (fun p q => tm V c ((n + 1) / 16) r m (colOf p q))).symm
    · have e1 : (n + 1) / 16 = n / 16 := by omega
      have e2 : (n + 1) % 16 = n % 16 + 1 := by omega
      rw [acc_next V c n h h0 r m, ih (Nat.lt_of_succ_lt h), e1, e2, blockSum_succ]

/-! ## What a tile's last k step writes back -/

/-- The output tile after the last k step, at (r, m): the layer at row r of the row tile, column m of the column tile. -/
theorem out_last (c : Dev nD) (n : ℕ) (h : n < cfg2.N) (h15 : n % 16 = 15) (r m : Fin 1024) :
    outAt V c n h (ix2 r m) = G V c (ix2 (rowOf (n / 16 / 4) r) (outOf (n / 16 % 4) m)) := by
  show k2_pay3 (accAt V c n h) (bB V c ⟨n, h⟩) (ix2 r m) = _
  refine (pay3_L2 (accAt V c n h) (bB V c ⟨n, h⟩) r m).trans ?_
  rw [acc_closed V c r m n h, h15, bB_apply V c n h m,
    blockSum_all (m := 15) (N := 8192) (by decide) (tm V c (n / 16) r m) colOf colOf_val]
  rfl

/-- What a flushing point writes back is its block of the layer. -/
theorem flushed_eq (c : Dev nD) (t : Fin cfg2.N) (hf : (cfg2.win 4).flush t = true) :
    (dat (F := Ideal) V c).flushed 4 t = ((cfg2.win 4).blk t).view.read (Elt Ideal) (G V c) := by
  have h15 : t.val % 16 = 15 := (flush2_4 t).mp hf
  have ht : t.val < 512 := lt512 t.isLt
  obtain ⟨-, -, -, -, -, -, -, -, e0, e1⟩ := idx_facts t
  show (cfg2.win 4).cut (grid2.coords t) ((dat V c).after 4 t) = _
  rw [after_out]
  funext j
  have hj0 : (j 0).val < 1024 := (j 0).isLt
  have hj1 : (j 1).val < 1024 := (j 1).isLt
  have hx : (cfg2.win 4).xinj (grid2.coords t) j = ix2 (⟨(j 0).val, hj0⟩ : Fin 1024) (⟨(j 1).val, hj1⟩ : Fin 1024) := by
    funext a
    match a with
    | ⟨0, _⟩ => rfl
    | ⟨1, _⟩ => rfl
  refine (congrArg (outAt V c t.val t.isLt) hx).trans ?_
  rw [out_last V c t.val t.isLt h15, View.read_apply]
  show G V c _ = G V c (((cfg2.win 4).blk t).view.emb j)
  refine congrArg (G V c) (funext fun a => Fin.ext ?_)
  match a with
  | ⟨0, _⟩ => show (1024 * (t.val / 16 / 4) + (j 0).val) % 8192 = win2_4.index t 0 * 1024 + 1 * (j 0).val; rw [e0]; omega
  | ⟨1, _⟩ => show (1024 * (t.val / 16 % 4) + (j 1).val) % 4096 = win2_4.index t 1 * 1024 + 1 * (j 1).val; rw [e1]; omega

/-! ## The tiles cover the output array -/

/-- Entry (R, C) is written back after the last k step of row tile R / 1024, column tile C / 1024. -/
theorem cover (i : S8192x4096.Idx) :
    ∃ t : Fin cfg2.N, (cfg2.win 4).flush t = true ∧ i ∈ ((cfg2.win 4).blk t).view.set := by
  have hi0 : (i 0).val < 8192 := (i 0).isLt
  have hi1 : (i 1).val < 4096 := (i 1).isLt
  have hN : grid2.N = 512 := N_2
  obtain ⟨t, ht⟩ : ∃ t : Fin cfg2.N, t.val = ((i 0).val / 1024 * 4 + (i 1).val / 1024) * 16 + 15 :=
    ⟨⟨((i 0).val / 1024 * 4 + (i 1).val / 1024) * 16 + 15, by show _ < grid2.N; omega⟩, rfl⟩
  obtain ⟨-, -, -, -, -, -, -, -, e0, e1⟩ := idx_facts t
  refine ⟨t, (flush2_4 t).mpr (by omega), ?_⟩
  show i ∈ ((View.whole main_v5).slice (win2_4.rect t)).set
  rw [View.set_slice_whole, Rect.mem_set_unit]
  intro a
  match a with
  | ⟨0, _⟩ => show win2_4.index t 0 * 1024 ≤ (i 0).val ∧ (i 0).val < win2_4.index t 0 * 1024 + 1024; rw [e0]; omega
  | ⟨1, _⟩ => show win2_4.index t 1 * 1024 ≤ (i 1).val ∧ (i 1).val < win2_4.index t 1 * 1024 + 1024; rw [e1]; omega

/-! ## The output array after the region -/

/-- The output array ends holding one masked linear layer, clamped at zero, of the arrays the region found. -/
theorem final_out (c : Dev nD) :
    (dat (F := Ideal) V c).arrAt 4 cfg2.N
      = Cert.Spec.layerRelu (B := 8192) (N := 4096) (K := 8192) (V c main_v3) (V c main_arg7) (V c main_arg9) (fun j => V c main_v4 (ix2 0 (j 0))) :=
  (dat (F := Ideal) V c).arrAt_eq_of_cover 4 (G V c) (flushed_eq V c) cover

end Cert.KernelIdeal.L2

end
-- ==== Proof.KernelIdeal.L3.Value.lean ====
/-
  Layer 3 of the masked MLP, the last one: what the output array holds after the kernel's region, at the ideal values.
  The grid is 8 row tiles by 1 column tile by 8 k steps; position t is (row tile * 1 + column tile) * 8 + k step. At k
  step kk of a tile the kernel adds to the accumulator, cleared at k step 0, the product of the x block (the row tile's
  rows, columns 512 kk to 512 kk + 511) with the transposed masked weight block (the column tile's rows, the same
  columns); after k step 7 it adds the bias row and writes the tile back. So after the region entry (R, C) of the output is
      sum over k < 4096 of x[R, k] * (W[C, k] * M[C, k]) + b[C],
  one masked linear layer, not clamped, of the arrays the region found. Only 0 + s = s and the re-bracketing of a sum of
  eight blocks of 512 into one sum of 4096 are used of the arithmetic: no distributivity.
-/
import proofs.«155488_j45518063403493_1_alg».proof.Proof.KernelIdeal.L3.Dat
import proofs.«155488_j45518063403493_1_alg».proof.Proof.KernelIdeal.Payloads
import proofs.«155488_j45518063403493_1_alg».proof.Proof.Spec
import Idealize.ShloMosaic.Lib.Pipeline.Value
import Idealize.ShloMosaic.Lib.ValueIdx

set_option maxRecDepth 16384

noncomputable section

namespace Cert.KernelIdeal.L3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.Payloads

/-! ## Blocks of a sum -/

section Blocks

variable {M : Type*} [AddCommMonoid M]

/-- The sum over the first kk + 1 blocks of n terms each. -/
def blockSum {n : ℕ} (g : ℕ → Fin n → M) (kk : ℕ) : M := ∑ p ∈ Finset.range (kk + 1), ∑ q : Fin n, g p q

theorem blockSum_zero {n : ℕ} (g : ℕ → Fin n → M) : blockSum g 0 = ∑ q : Fin n, g 0 q := by
  unfold blockSum
  rw [Finset.sum_range_one]

theorem blockSum_succ {n : ℕ} (g : ℕ → Fin n → M) (kk : ℕ) :
    blockSum g (kk + 1) = blockSum g kk + ∑ q : Fin n, g (kk + 1) q := by
  unfold blockSum
  rw [Finset.sum_range_succ]

/-- m + 1 blocks of n terms, block p's term q being term n * p + q of N = (m + 1) * n, make the one sum over N. -/
theorem blockSum_all {m n N : ℕ} (hN : N = (m + 1) * n) (f : Fin N → M) (col : ℕ → Fin n → Fin N)
    (hcol : ∀ (p : ℕ) (q : Fin n), p < m + 1 → (col p q).val = n * p + q.val) :
    blockSum (fun p q => f (col p q)) m = ∑ k : Fin N, f k := by
  subst hN
  unfold blockSum
  rw [Finset.sum_range, ← Equiv.sum_comp finProdFinEquiv f, Fintype.sum_prod_type]
  refine Finset.sum_congr rfl fun p _ => Finset.sum_congr rfl fun q _ => congrArg f (Fin.ext ?_)
  rw [hcol p.val q p.isLt]
  show n * p.val + q.val = q.val + n * p.val
  exact Nat.add_comm _ _

end Blocks

/-! ## The grid and the windows' block indices -/

theorem lt64 {n : ℕ} (h : n < cfg3.N) : n < 64 := by
  have h' : n < grid3.N := h
  rw [N_3] at h'
  exact h'

/-- The printed index maps over the position: the row tile is t / 8 / 1, the column tile t / 8 % 1, the k step t % 8. -/
theorem idx_facts : ∀ t : Fin cfg3.N,
    win3_0.index t (0 : Fin 2) = t.val / 8 / 1 ∧ win3_0.index t (1 : Fin 2) = t.val % 8
    ∧ win3_1.index t (0 : Fin 2) = t.val / 8 % 1 ∧ win3_1.index t (1 : Fin 2) = t.val % 8
    ∧ win3_2.index t (0 : Fin 2) = t.val / 8 % 1 ∧ win3_2.index t (1 : Fin 2) = t.val % 8
    ∧ win3_3.index t (0 : Fin 2) = 0 ∧ win3_3.index t (1 : Fin 2) = t.val / 8 % 1
    ∧ win3_4.index t (0 : Fin 2) = t.val / 8 / 1 ∧ win3_4.index t (1 : Fin 2) = t.val / 8 % 1 :=
  (by decide +kernel : ∀ t : Fin grid3.N, _)

/-- Row r of row tile i, in the x array and in the output. -/
def rowOf (i : ℕ) (r : Fin 1024) : Fin 8192 := ⟨(1024 * i + r.val) % 8192, Nat.mod_lt _ (by decide)⟩
/-- Row m of column tile j in the weight and mask arrays: column 1024 j + m of the output and of the bias row. -/
def outOf (j : ℕ) (m : Fin 1024) : Fin 1024 := ⟨(1024 * j + m.val) % 1024, Nat.mod_lt _ (by decide)⟩
/-- Column q of k step p: column 512 p + q of the x, weight and mask arrays. -/
def colOf (p : ℕ) (q : Fin 512) : Fin 4096 := ⟨(512 * p + q.val) % 4096, Nat.mod_lt _ (by decide)⟩

theorem colOf_val (p : ℕ) (q : Fin 512) (hp : p < 7 + 1) : (colOf p q).val = 512 * p + q.val := by
  have := q.isLt
  show (512 * p + q.val) % 4096 = 512 * p + q.val
  omega

variable (V : (c : Dev nD) → (b : Ref sig .tc) → Buf (Elt Ideal) ((c : Thread nD τ).loc b))

/-! ## The arrays the region finds, and their blocks -/

/-- The x, weight, mask and bias arrays at their literal shapes. -/
abbrev Xarr (c : Dev nD) : (⟨2, ![8192, 4096]⟩ : Shape).Idx → EReal := V c main_v5
abbrev Warr (c : Dev nD) : (⟨2, ![1024, 4096]⟩ : Shape).Idx → EReal := V c main_arg10
abbrev Marr (c : Dev nD) : (⟨2, ![1024, 4096]⟩ : Shape).Idx → EReal := V c main_arg12
abbrev Barr (c : Dev nD) : (⟨2, ![1, 1024]⟩ : Shape).Idx → EReal := V c main_v6

/-- The layer of those arrays: what the output array ends holding. -/
abbrev G (c : Dev nD) : (⟨2, ![8192, 1024]⟩ : Shape).Idx → EReal :=
  Cert.Spec.layer (B := 8192) (N := 1024) (K := 4096) (V c main_v5) (V c main_arg10) (V c main_arg12) (fun j => V c main_v6 (ix2 0 (j 0)))

/-- The x block of position n at (r, q) is x at row r of the row tile, column q of the k step. -/
theorem xB_apply (c : Dev nD) (n : ℕ) (h : n < cfg3.N) (r : Fin 1024) (q : Fin 512) :
    xB V c ⟨n, h⟩ (ix2 r q) = Xarr V c (ix2 (rowOf (n / 8 / 1) r) (colOf (n % 8) q)) := by
  have hn : n < 64 := lt64 h
  have hr := r.isLt
  have hq := q.isLt
  obtain ⟨e0, e1, -⟩ := idx_facts ⟨n, h⟩
  dsimp only at e0 e1
  show ((cfg3.win 0).blk ⟨n, h⟩).view.read (Elt Ideal) (V c (Pipeline.arrRef spec3 0)) (ix2 r q) = _
  rw [View.read_apply]
  show V c main_v5 (((cfg3.win 0).blk ⟨n, h⟩).view.emb (ix2 r q)) = V c main_v5 (ix2 (rowOf (n / 8 / 1) r) (colOf (n % 8) q))
  refine congrArg (V c main_v5) (funext fun a => Fin.ext ?_)
  match a with
  | ⟨0, _⟩ => show win3_0.index ⟨n, h⟩ 0 * 1024 + 1 * r.val = (1024 * (n / 8 / 1) + r.val) % 8192; rw [e0]; omega
  | ⟨1, _⟩ => show win3_0.index ⟨n, h⟩ 1 * 512 + 1 * q.val = (512 * (n % 8) + q.val) % 4096; rw [e1]; omega

/-- The weight block of position n at (m, q) is W at row m of the column tile, column q of the k step. -/
theorem wB_apply (c : Dev nD) (n : ℕ) (h : n < cfg3.N) (m : Fin 1024) (q : Fin 512) :
    wB V c ⟨n, h⟩ (ix2 m q) = Warr V c (ix2 (outOf (n / 8 % 1) m) (colOf (n % 8) q)) := by
  have hn : n < 64 := lt64 h
  have hm := m.isLt
  have hq := q.isLt
  obtain ⟨-, -, e0, e1, -⟩ := idx_facts ⟨n, h⟩
  dsimp only at e0 e1
  show ((cfg3.win 1).blk ⟨n, h⟩).view.read (Elt Ideal) (V c (Pipeline.arrRef spec3 1)) (ix2 m q) = _
  rw [View.read_apply]
  show V c main_arg10 (((cfg3.win 1).blk ⟨n, h⟩).view.emb (ix2 m q)) = V c main_arg10 (ix2 (outOf (n / 8 % 1) m) (colOf (n % 8) q))
  refine congrArg (V c main_arg10) (funext fun a => Fin.ext ?_)
  match a with
  | ⟨0, _⟩ => show win3_1.index ⟨n, h⟩ 0 * 1024 + 1 * m.val = (1024 * (n / 8 % 1) + m.val) % 1024; rw [e0]; omega
  | ⟨1, _⟩ => show win3_1.index ⟨n, h⟩ 1 * 512 + 1 * q.val = (512 * (n % 8) + q.val) % 4096; rw [e1]; omega

/-- The mask block likewise. -/
theorem kB_apply (c : Dev nD) (n : ℕ) (h : n < cfg3.N) (m : Fin 1024) (q : Fin 512) :
    kB V c ⟨n, h⟩ (ix2 m q) = Marr V c (ix2 (outOf (n / 8 % 1) m) (colOf (n % 8) q)) := by
  have hn : n < 64 := lt64 h
  have hm := m.isLt
  have hq := q.isLt
  obtain ⟨-, -, -, -, e0, e1, -⟩ := idx_facts ⟨n, h⟩
  dsimp only at e0 e1
  show ((cfg3.win 2).blk ⟨n, h⟩).view.read (Elt Ideal) (V c (Pipeline.arrRef spec3 2)) (ix2 m q) = _
  rw [View.read_apply]
  show V c main_arg12 (((cfg3.win 2).blk ⟨n, h⟩).view.emb (ix2 m q)) = V c main_arg12 (ix2 (outOf (n / 8 % 1) m) (colOf (n % 8) q))
  refine congrArg (V c main_arg12) (funext fun a => Fin.ext ?_)
  match a with
  | ⟨0, _⟩ => show win3_2.index ⟨n, h⟩ 0 * 1024 + 1 * m.val = (1024 * (n / 8 % 1) + m.val) % 1024; rw [e0]; omega
  | ⟨1, _⟩ => show win3_2.index ⟨n, h⟩ 1 * 512 + 1 * q.val = (512 * (n % 8) + q.val) % 4096; rw [e1]; omega

/-- The bias block of position n at (0, m) is the bias row at column m of the column tile. -/
theorem bB_apply (c : Dev nD) (n : ℕ) (h : n < cfg3.N) (m : Fin 1024) :
    bB V c ⟨n, h⟩ (ix2 0 m) = Barr V c (ix2 0 (outOf (n / 8 % 1) m)) := by
  have hn : n < 64 := lt64 h
  have hm := m.isLt
  obtain ⟨-, -, -, -, -, -, e0, e1, -⟩ := idx_facts ⟨n, h⟩
  dsimp only at e0 e1
  show ((cfg3.win 3).blk ⟨n, h⟩).view.read (Elt Ideal) (V c (Pipeline.arrRef spec3 3)) (ix2 0 m) = _
  rw [View.read_apply]
  show V c main_v6 (((cfg3.win 3).blk ⟨n, h⟩).view.emb (ix2 0 m)) = V c main_v6 (ix2 0 (outOf (n / 8 % 1) m))
  refine congrArg (V c main_v6) (funext fun a => Fin.ext ?_)
  match a with
  | ⟨0, _⟩ => show win3_3.index ⟨n, h⟩ 0 * 1 + 1 * 0 = 0; rw [e0]
  | ⟨1, _⟩ => show win3_3.index ⟨n, h⟩ 1 * 1024 + 1 * m.val = (1024 * (n / 8 % 1) + m.val) % 1024; rw [e1]; omega

/-! ## The accumulator over a tile's k steps -/

/-- One product of the layer's sum: output tile tl (row tile tl / 1, column tile tl % 1), entry (r, m) of the tile, column k. -/
def tm (c : Dev nD) (tl : ℕ) (r m : Fin 1024) (k : Fin 4096) : EReal :=
  Xarr V c (ix2 (rowOf (tl / 1) r) k) * (Warr V c (ix2 (outOf (tl % 1) m) k) * Marr V c (ix2 (outOf (tl % 1) m) k))

/-- What the k step of position n adds at (r, m): the products over the step's 512 columns. -/
theorem step_sum (c : Dev nD) (n : ℕ) (h : n < cfg3.N) (r m : Fin 1024) :
    ∑ q : Fin 512, xB V c ⟨n, h⟩ (ix2 r q) * (wB V c ⟨n, h⟩ (ix2 m q) * kB V c ⟨n, h⟩ (ix2 m q))
      = ∑ q : Fin 512, tm V c (n / 8) r m (colOf (n % 8) q) :=
  Finset.sum_congr rfl fun q _ => by
    rw [xB_apply V c n h r q, wB_apply V c n h m q, kB_apply V c n h m q]
    rfl

/-- At a first k step the accumulator is the step's sum: the zero block plus it. -/
theorem acc_first (c : Dev nD) (n : ℕ) (h : n < cfg3.N) (h0 : n % 8 = 0) (r m : Fin 1024) :
    accAt V c n h (ix2 r m) = ∑ q : Fin 512, tm V c (n / 8) r m (colOf (n % 8) q) := by
  have e : accAt V c n h = k3_pay2 (xB V c ⟨n, h⟩) (wB V c ⟨n, h⟩) (kB V c ⟨n, h⟩) (k3_pay1 (F := Ideal)) :=
    accAt_first V c ⟨n, h⟩ h0
  rw [e]
  refine (pay2_L3 (xB V c ⟨n, h⟩) (wB V c ⟨n, h⟩) (kB V c ⟨n, h⟩) (k3_pay1 (F := Ideal)) r m).trans ?_
  rw [pay1_L3, zero_add]
  exact step_sum V c n h r m

/-- At a later k step it is what the step before left plus the step's sum. -/
theorem acc_next (c : Dev nD) (n : ℕ) (h : n + 1 < cfg3.N) (h0 : ¬(n + 1) % 8 = 0) (r m : Fin 1024) :
    accAt V c (n + 1) h (ix2 r m)
      = accAt V c n (Nat.lt_of_succ_lt h) (ix2 r m) + ∑ q : Fin 512, tm V c ((n + 1) / 8) r m (colOf ((n + 1) % 8) q) := by
  have e : accAt V c (n + 1) h = k3_pay2 (xB V c ⟨n + 1, h⟩) (wB V c ⟨n + 1, h⟩) (kB V c ⟨n + 1, h⟩) (accAt V c n (Nat.lt_of_succ_lt h)) :=
    accAt_next V c ⟨n + 1, h⟩ h0
  rw [e]
  refine (pay2_L3 (xB V c ⟨n + 1, h⟩) (wB V c ⟨n + 1, h⟩) (kB V c ⟨n + 1, h⟩) (accAt V c n (Nat.lt_of_succ_lt h)) r m).trans ?_
  rw [step_sum V c (n + 1) h r m]

/-- The closed form: after k step n % 8 of tile n / 8 the accumulator at (r, m) is the sum of the tile's products over
    the first n % 8 + 1 blocks of 512 columns. By induction on the position. -/
theorem acc_closed (c : Dev nD) (r m : Fin 1024) : ∀ (n : ℕ) (h : n < cfg3.N),
    accAt V c n h (ix2 r m) = blockSum (fun p q => tm V c (n / 8) r m (colOf p q)) (n % 8) := by
  intro n
  induction n with
  | zero =>
    intro h
    rw [acc_first V c 0 h (Nat.zero_mod 8) r m]
    exact (blockSum_zero (fun p q => tm V c (0 / 8) r m (colOf p q))).symm
  | succ n ih =>
    intro h
    by_cases h0 : (n + 1) % 8 = 0
    · rw [acc_first V c (n + 1) h h0 r m, h0]
      exact (blockSum_zero (fun p q => tm V c ((n + 1) / 8) r m (colOf p q))).symm
    · have e1 : (n + 1) / 8 = n / 8 := by omega
      have e2 : (n + 1) % 8 = n % 8 + 1 := by omega
      rw [acc_next V c n h h0 r m, ih (Nat.lt_of_succ_lt h), e1, e2, blockSum_succ]

/-! ## What a tile's last k step writes back -/

/-- The output tile after the last k step, at (r, m): the layer at row r of the row tile, column m of the column tile. -/
theorem out_last (c : Dev nD) (n : ℕ) (h : n < cfg3.N) (h7 : n % 8 = 7) (r m : Fin 1024) :
    outAt V c n h (ix2 r m) = G V c (ix2 (rowOf (n / 8 / 1) r) (outOf (n / 8 % 1) m)) := by
  show k3_pay3 (accAt V c n h) (bB V c ⟨n, h⟩) (ix2 r m) = _
  refine (pay3_L3 (accAt V c n h) (bB V c ⟨n, h⟩) r m).trans ?_
  rw [acc_closed V c r m n h, h7, bB_apply V c n h m,
    blockSum_all (m := 7) (N := 4096) (by decide) (tm V c (n / 8) r m) colOf colOf_val]
  rfl

/-- What a flushing point writes back is its block of the layer. -/
theorem flushed_eq (c : Dev nD) (t : Fin cfg3.N) (hf : (cfg3.win 4).flush t = true) :
    (dat (F := Ideal) V c).flushed 4 t = ((cfg3.win 4).blk t).view.read (Elt Ideal) (G V c) := by
  have h7 : t.val % 8 = 7 := (flush3_4 t).mp hf
  have ht : t.val < 64 := lt64 t.isLt
  obtain ⟨-, -, -, -, -, -, -, -, e0, e1⟩ := idx_facts t
  show (cfg3.win 4).cut (grid3.coords t) ((dat V c).after 4 t) = _
  rw [after_out]
  funext j
  have hj0 : (j 0).val < 1024 := (j 0).isLt
  have hj1 : (j 1).val < 1024 := (j 1).isLt
  have hx : (cfg3.win 4).xinj (grid3.coords t) j = ix2 (⟨(j 0).val, hj0⟩ : Fin 1024) (⟨(j 1).val, hj1⟩ : Fin 1024) := by
    funext a
    match a with
    | ⟨0, _⟩ => rfl
    | ⟨1, _⟩ => rfl
  refine (congrArg (outAt V c t.val t.isLt) hx).trans ?_
  rw [out_last V c t.val t.isLt h7, View.read_apply]
  show G V c _ = G V c (((cfg3.win 4).blk t).view.emb j)
  refine congrArg (G V c) (funext fun a => Fin.ext ?_)
  match a with
  | ⟨0, _⟩ => show (1024 * (t.val / 8 / 1) + (j 0).val) % 8192 = win3_4.index t 0 * 1024 + 1 * (j 0).val; rw [e0]; omega
  | ⟨1, _⟩ => show (1024 * (t.val / 8 % 1) + (j 1).val) % 1024 = win3_4.index t 1 * 1024 + 1 * (j 1).val; rw [e1]; omega

/-! ## The tiles cover the output array -/

/-- Entry (R, C) is written back after the last k step of row tile R / 1024, column tile C / 1024. -/
theorem cover (i : S8192x1024.Idx) :
    ∃ t : Fin cfg3.N, (cfg3.win 4).flush t = true ∧ i ∈ ((cfg3.win 4).blk t).view.set := by
  have hi0 : (i 0).val < 8192 := (i 0).isLt
  have hi1 : (i 1).val < 1024 := (i 1).isLt
  have hN : grid3.N = 64 := N_3
  obtain ⟨t, ht⟩ : ∃ t : Fin cfg3.N, t.val = ((i 0).val / 1024 * 1 + (i 1).val / 1024) * 8 + 7 :=
    ⟨⟨((i 0).val / 1024 * 1 + (i 1).val / 1024) * 8 + 7, by show _ < grid3.N; omega⟩, rfl⟩
  obtain ⟨-, -, -, -, -, -, -, -, e0, e1⟩ := idx_facts t
  refine ⟨t, (flush3_4 t).mpr (by omega), ?_⟩
  show i ∈ ((View.whole main_v7).slice (win3_4.rect t)).set
  rw [View.set_slice_whole, Rect.mem_set_unit]
  intro a
  match a with
  | ⟨0, _⟩ => show win3_4.index t 0 * 1024 ≤ (i 0).val ∧ (i 0).val < win3_4.index t 0 * 1024 + 1024; rw [e0]; omega
  | ⟨1, _⟩ => show win3_4.index t 1 * 1024 ≤ (i 1).val ∧ (i 1).val < win3_4.index t 1 * 1024 + 1024; rw [e1]; omega

/-! ## The output array after the region -/

/-- The output array ends holding one masked linear layer, not clamped, of the arrays the region found. -/
theorem final_out (c : Dev nD) :
    (dat (F := Ideal) V c).arrAt 4 cfg3.N
      = Cert.Spec.layer (B := 8192) (N := 1024) (K := 4096) (V c main_v5) (V c main_arg10) (V c main_arg12) (fun j => V c main_v6 (ix2 0 (j 0))) :=
  (dat (F := Ideal) V c).arrAt_eq_of_cover 4 (G V c) (flushed_eq V c) cover

end Cert.KernelIdeal.L3

end
-- ==== Proof.KernelIdeal.NetValue.lean ====
/-
  The kernel program's result array is the masked MLP of its arguments.

  Each region's output array is one layer of the arrays the region found (L<k>/Value.lean). A region finds: as its x
  operand the argument x (layer 0) or the previous region's output; as weights and mask two arguments no earlier item
  wrote; as bias the row a host reshape made of the bias vector, whose entry (0, n) is the vector's entry n. Substituting
  region by region gives the composition of the four layers.
-/
import proofs.«155488_j45518063403493_1_alg».proof.Proof.KernelIdeal.Net
import proofs.«155488_j45518063403493_1_alg».proof.Proof.KernelIdeal.L0.Value
import proofs.«155488_j45518063403493_1_alg».proof.Proof.KernelIdeal.L1.Value
import proofs.«155488_j45518063403493_1_alg».proof.Proof.KernelIdeal.L2.Value
import proofs.«155488_j45518063403493_1_alg».proof.Proof.KernelIdeal.L3.Value
import proofs.«155488_j45518063403493_1_alg».proof.Proof.Spec
import Idealize.ShloMosaic.Lib.Pipeline.Value
import Idealize.ShloMosaic.Lib.ValueIdx

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- A vector laid out as a one-row matrix, read at (0, n), is the vector at n. -/
theorem row_read {n : ℕ} (b : (⟨1, ![n]⟩ : Shape).Idx → EReal) (h : (⟨1, ![n]⟩ : Shape).ShapeCasts ⟨2, ![1, n]⟩)
    (j : (⟨1, ![n]⟩ : Shape).Idx) : shapeCast (⟨2, ![1, n]⟩ : Shape) b h (ix2 0 (j 0)) = b j := by
  refine (shapeCast_addUnit_apply (n := 1) ![n] b h (ix2 0 (j 0))).trans (congrArg b ?_)
  funext a
  match a with
  | ⟨0, _⟩ => rfl

theorem bias0 (c : Dev nD) : (fun j : (⟨1, ![8192]⟩ : Shape).Idx => V1 m c main_v0 (ix2 0 (j 0))) = (m ((c : Thread nD τ).loc main_arg2)) :=
  funext fun j => by rw [V1_bias]; exact row_read _ _ j
theorem bias1 (c : Dev nD) : (fun j : (⟨1, ![8192]⟩ : Shape).Idx => V3 m c main_v2 (ix2 0 (j 0))) = (m ((c : Thread nD τ).loc main_arg5)) :=
  funext fun j => by rw [V3_bias]; exact row_read _ _ j
theorem bias2 (c : Dev nD) : (fun j : (⟨1, ![4096]⟩ : Shape).Idx => V5 m c main_v4 (ix2 0 (j 0))) = (m ((c : Thread nD τ).loc main_arg8)) :=
  funext fun j => by rw [V5_bias]; exact row_read _ _ j
theorem bias3 (c : Dev nD) : (fun j : (⟨1, ![1024]⟩ : Shape).Idx => V7 m c main_v6 (ix2 0 (j 0))) = (m ((c : Thread nD τ).loc main_arg11)) :=
  funext fun j => by rw [V7_bias]; exact row_read _ _ j

/-- The result array after the last region is the four layers composed on the launch's arguments. -/
theorem out_eq (c : Dev nD) :
    W8 m c (Proc.devRef .tc main_v7)
      = Cert.Spec.mlp (m ((c : Thread nD τ).loc main_arg0)) (m ((c : Thread nD τ).loc main_arg1)) (m ((c : Thread nD τ).loc main_arg3)) (m ((c : Thread nD τ).loc main_arg2)) (m ((c : Thread nD τ).loc main_arg4)) (m ((c : Thread nD τ).loc main_arg6)) (m ((c : Thread nD τ).loc main_arg5)) (m ((c : Thread nD τ).loc main_arg7)) (m ((c : Thread nD τ).loc main_arg9)) (m ((c : Thread nD τ).loc main_arg8)) (m ((c : Thread nD τ).loc main_arg10)) (m ((c : Thread nD τ).loc main_arg12)) (m ((c : Thread nD τ).loc main_arg11)) := by
  rw [W8_out, L3.final_out, bias3, V7_x, V7_w, V7_mask, L2.final_out, bias2, V5_x, V5_w, V5_mask,
    L1.final_out, bias1, V3_x, V3_w, V3_mask, L0.final_out, bias0, V1_x, V1_w, V1_mask]
  rfl

end Cert.KernelIdeal.Net

end
-- ==== Proof.RefValue.lean ====
/-
  The reference program's result, read index by index, is the masked MLP of its arguments.
-/
import proofs.«155488_j45518063403493_1_alg».proof.Proof.Gen.ReferenceIdeal.Run
import proofs.«155488_j45518063403493_1_alg».proof.Proof.Gen.ReferenceIdeal.Read
import proofs.«155488_j45518063403493_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The four layers, one at a time

Each stage of the program (the masked weights transposed, the contraction over the fan-in axis, the bias broadcast
along the rows, and, in the first three, the maximum with the zero matrix) is one layer of the specification applied to
the stage before it: entry (r, n) is  sum over k of h[r, k] * (W[n, k] * M[n, k])  +  b[n], clamped at zero. -/

/-- First layer: fan-in 4096, fan-out 8192, clamped. -/
theorem layer1 (x W M : FVec Ideal S8192x4096 .f32) (b : FVec Ideal S8192 .f32) :
    val_main_v6 (F := Ideal) x W b M = Cert.Spec.layerRelu (B := 8192) (N := 8192) (K := 4096) x W M b := by
  funext i
  obtain ⟨r, n, rfl⟩ : ∃ (r : Fin 8192) (n : Fin 8192), i = ix2 r n := ⟨i 0, i 1, eq_ix2 i⟩
  have el : ∀ k : Fin 4096, lidx_main_v2 (ix2 r n) k = ix2 r k := fun k =>
    funext fun a => Fin.ext (by match a with | ⟨0, _⟩ => rfl | ⟨1, _⟩ => rfl)
  have er : ∀ k : Fin 4096, idx_main_v1 (ridx_main_v2 (ix2 r n) k) = ix2 n k := fun k =>
    funext fun a => Fin.ext (by match a with | ⟨0, _⟩ => rfl | ⟨1, _⟩ => rfl)
  have eb : idx_main_v3 (idx_main_v4 (ix2 r n)) = ix1 n :=
    funext fun a => Fin.ext (by match a with | ⟨0, _⟩ => rfl)
  rw [val_main_v6_apply, val_main_v5_apply, val_main_v2_apply, val_main_v4_apply, val_main_v3_apply,
    val_main_call0_v0_apply, val_main_call0_cst_apply, eb]
  simp only [val_main_v1_apply, val_main_v0_apply, el, er, Ideal.maximumf_def, Ideal.addf_def, Ideal.mulf_def,
    Ideal.ofBits_def, Ideal.ofBits_zero_f32]
  rfl

/-- Second layer: fan-in 8192, fan-out 8192, clamped, applied to the first layer's result. -/
theorem layer2 (x0 x1 : FVec Ideal S8192x4096 .f32) (x2 : FVec Ideal S8192 .f32) (x3 : FVec Ideal S8192x4096 .f32)
    (W M : FVec Ideal S8192x8192 .f32) (b : FVec Ideal S8192 .f32) :
    val_main_v13 (F := Ideal) x0 x1 x2 x3 W b M
      = Cert.Spec.layerRelu (B := 8192) (N := 8192) (K := 8192) (val_main_v6 (F := Ideal) x0 x1 x2 x3) W M b := by
  funext i
  obtain ⟨r, n, rfl⟩ : ∃ (r : Fin 8192) (n : Fin 8192), i = ix2 r n := ⟨i 0, i 1, eq_ix2 i⟩
  have el : ∀ k : Fin 8192, lidx_main_v9 (ix2 r n) k = ix2 r k := fun k =>
    funext fun a => Fin.ext (by match a with | ⟨0, _⟩ => rfl | ⟨1, _⟩ => rfl)
  have er : ∀ k : Fin 8192, idx_main_v8 (ridx_main_v9 (ix2 r n) k) = ix2 n k := fun k =>
    funext fun a => Fin.ext (by match a with | ⟨0, _⟩ => rfl | ⟨1, _⟩ => rfl)
  have eb : idx_main_v10 (idx_main_v11 (ix2 r n)) = ix1 n :=
    funext fun a => Fin.ext (by match a with | ⟨0, _⟩ => rfl)
  rw [val_main_v13_apply, val_main_v12_apply, val_main_v9_apply, val_main_v11_apply, val_main_v10_apply,
    val_main_call1_v0_apply, val_main_call1_cst_apply, eb]
  generalize val_main_v6 (F := Ideal) x0 x1 x2 x3 = h
  simp only [val_main_v8_apply, val_main_v7_apply, el, er, Ideal.maximumf_def, Ideal.addf_def, Ideal.mulf_def,
    Ideal.ofBits_def, Ideal.ofBits_zero_f32]
  rfl

/-- Third layer: fan-in 8192, fan-out 4096, clamped, applied to the second layer's result. -/
theorem layer3 (x0 x1 : FVec Ideal S8192x4096 .f32) (x2 : FVec Ideal S8192 .f32) (x3 : FVec Ideal S8192x4096 .f32)
    (x4 : FVec Ideal S8192x8192 .f32) (x5 : FVec Ideal S8192 .f32) (x6 : FVec Ideal S8192x8192 .f32)
    (W M : FVec Ideal S4096x8192 .f32) (b : FVec Ideal S4096 .f32) :
    val_main_v20 (F := Ideal) x0 x1 x2 x3 x4 x5 x6 W b M
      = Cert.Spec.layerRelu (B := 8192) (N := 4096) (K := 8192) (val_main_v13 (F := Ideal) x0 x1 x2 x3 x4 x5 x6) W M b := by
  funext i
  obtain ⟨r, n, rfl⟩ : ∃ (r : Fin 8192) (n : Fin 4096), i = ix2 r n := ⟨i 0, i 1, eq_ix2 i⟩
  have el : ∀ k : Fin 8192, lidx_main_v16 (ix2 r n) k = ix2 r k := fun k =>
    funext fun a => Fin.ext (by match a with | ⟨0, _⟩ => rfl | ⟨1, _⟩ => rfl)
  have er : ∀ k : Fin 8192, idx_main_v15 (ridx_main_v16 (ix2 r n) k) = ix2 n k := fun k =>
    funext fun a => Fin.ext (by match a with | ⟨0, _⟩ => rfl | ⟨1, _⟩ => rfl)
  have eb : idx_main_v17 (idx_main_v18 (ix2 r n)) = ix1 n :=
    funext fun a => Fin.ext (by match a with | ⟨0, _⟩ => rfl)
  rw [val_main_v20_apply, val_main_v19_apply, val_main_v16_apply, val_main_v18_apply, val_main_v17_apply,
    val_main_call2_v0_apply, val_main_call2_cst_apply, eb]
  generalize val_main_v13 (F := Ideal) x0 x1 x2 x3 x4 x5 x6 = h
  simp only [val_main_v15_apply, val_main_v14_apply, el, er, Ideal.maximumf_def, Ideal.addf_def, Ideal.mulf_def,
    Ideal.ofBits_def, Ideal.ofBits_zero_f32]
  rfl

/-- Last layer: fan-in 4096, fan-out 1024, no clamp, applied to the third layer's result. -/
theorem layer4 (x0 x1 : FVec Ideal S8192x4096 .f32) (x2 : FVec Ideal S8192 .f32) (x3 : FVec Ideal S8192x4096 .f32)
    (x4 : FVec Ideal S8192x8192 .f32) (x5 : FVec Ideal S8192 .f32) (x6 : FVec Ideal S8192x8192 .f32)
    (x7 : FVec Ideal S4096x8192 .f32) (x8 : FVec Ideal S4096 .f32) (x9 : FVec Ideal S4096x8192 .f32)
    (W M : FVec Ideal S1024x4096 .f32) (b : FVec Ideal S1024 .f32) :
    val_main_v26 (F := Ideal) x0 x1 x2 x3 x4 x5 x6 x7 x8 x9 W b M
      = Cert.Spec.layer (B := 8192) (N := 1024) (K := 4096) (val_main_v20 (F := Ideal) x0 x1 x2 x3 x4 x5 x6 x7 x8 x9) W M b := by
  funext i
  obtain ⟨r, n, rfl⟩ : ∃ (r : Fin 8192) (n : Fin 1024), i = ix2 r n := ⟨i 0, i 1, eq_ix2 i⟩
  have el : ∀ k : Fin 4096, lidx_main_v23 (ix2 r n) k = ix2 r k := fun k =>
    funext fun a => Fin.ext (by match a with | ⟨0, _⟩ => rfl | ⟨1, _⟩ => rfl)
  have er : ∀ k : Fin 4096, idx_main_v22 (ridx_main_v23 (ix2 r n) k) = ix2 n k := fun k =>
    funext fun a => Fin.ext (by match a with | ⟨0, _⟩ => rfl | ⟨1, _⟩ => rfl)
  have eb : idx_main_v24 (idx_main_v25 (ix2 r n)) = ix1 n :=
    funext fun a => Fin.ext (by match a with | ⟨0, _⟩ => rfl)
  rw [val_main_v26_apply, val_main_v23_apply, val_main_v25_apply, val_main_v24_apply, eb]
  generalize val_main_v20 (F := Ideal) x0 x1 x2 x3 x4 x5 x6 x7 x8 x9 = h
  simp only [val_main_v22_apply, val_main_v21_apply, el, er, Ideal.addf_def, Ideal.mulf_def]
  rfl

/-! ## The whole program -/

/-- The program's result is the masked network of its thirteen arguments: three clamped layers and a last plain one. -/
theorem result_eq (x W0 M0 : FVec Ideal S8192x4096 .f32) (b0 : FVec Ideal S8192 .f32) (W1 M1 : FVec Ideal S8192x8192 .f32) (b1 : FVec Ideal S8192 .f32)
    (W2 M2 : FVec Ideal S4096x8192 .f32) (b2 : FVec Ideal S4096 .f32) (W3 M3 : FVec Ideal S1024x4096 .f32) (b3 : FVec Ideal S1024 .f32) :
    addf (Host.dotGeneral dot_S8192x4096_S4096x1024_S8192x1024_1_0_0_1_n_n none (maximumf (addf (Host.dotGeneral dot_S8192x8192_S8192x4096_S8192x4096_1_0_0_1_n_n none (maximumf (addf (Host.dotGeneral dot_S8192x8192_S8192x8192_S8192x8192_1_0_0_1_n_n none (maximumf (addf (Host.dotGeneral dot_S8192x4096_S4096x8192_S8192x8192_1_0_0_1_n_n none x (transpose S4096x8192 [1, 0] (mulf W0 M0) transposes_S8192x4096_S4096x8192_1_0)) (broadcastInDim S8192x8192 ![0, 1] bcast_S1x8192_S8192x8192_0_1 (broadcastInDim S1x8192 ![1] bcast_S8192_S1x8192_1 b0))) (broadcastInDim S8192x8192 ![] bcast_S_S8192x8192 (constant (F := Ideal) S_ .f32 0x00000000#32))) (transpose S8192x8192 [1, 0] (mulf W1 M1) transposes_S8192x8192_S8192x8192_1_0)) (broadcastInDim S8192x8192 ![0, 1] bcast_S1x8192_S8192x8192_0_1 (broadcastInDim S1x8192 ![1] bcast_S8192_S1x8192_1 b1))) (broadcastInDim S8192x8192 ![] bcast_S_S8192x8192 (constant (F := Ideal) S_ .f32 0x00000000#32))) (transpose S8192x4096 [1, 0] (mulf W2 M2) transposes_S4096x8192_S8192x4096_1_0)) (broadcastInDim S8192x4096 ![0, 1] bcast_S1x4096_S8192x4096_0_1 (broadcastInDim S1x4096 ![1] bcast_S4096_S1x4096_1 b2))) (broadcastInDim S8192x4096 ![] bcast_S_S8192x4096 (constant (F := Ideal) S_ .f32 0x00000000#32))) (transpose S4096x1024 [1, 0] (mulf W3 M3) transposes_S1024x4096_S4096x1024_1_0)) (broadcastInDim S8192x1024 ![0, 1] bcast_S1x1024_S8192x1024_0_1 (broadcastInDim S1x1024 ![1] bcast_S1024_S1x1024_1 b3))
      = Cert.Spec.mlp x W0 M0 b0 W1 M1 b1 W2 M2 b2 W3 M3 b3 := by
  refine (val_main_v26_eq (F := Ideal) x W0 b0 M0 W1 b1 M1 W2 b2 M2 W3 b3 M3).trans ?_
  rw [layer4, layer3, layer2, layer1]
  rfl

end Cert.ReferenceIdeal.RefValue

end
-- ==== Proof.lean ====
/-
  The certificate of the masked four-layer MLP kernel against its jnp reference.

  Over the extended reals both programs compute, layer by layer, the matrix whose entry (r, n) is the sum over k of
  x[r, k] * (W[n, k] * M[n, k]) plus b[n], clamped at zero in the first three layers (Proof/Spec.lean). The kernel
  program runs one pipelined region per layer: a tile of the output is accumulated over the k steps of the grid's last
  axis in a scratch accumulator, zeroed at the first k step, and stored with bias and activation at the last. Summing
  the k blocks one after the other is summing over all k (addition of extended reals is associative and commutative;
  no distributivity is used, so finiteness of the inputs is never needed). The reference multiplies by the transposed
  masked weights in one contraction.

  The frames: each region's body is run case by case (first, middle, last k step) on whole staging buffers
  (Proof/<Program>/L<k>/Runs.lean), the contents of the accumulator and the output tile are stated point by point
  (…/Dat.lean), and the four regions are composed among the host reshapes of the bias vectors (Proof/<Program>/Net.lean).
  The values: each region's output array is one layer of what the region found (Proof/KernelIdeal/L<k>/Value.lean),
  composed in Proof/KernelIdeal/NetValue.lean; the reference's run read index by index is the same composition
  (Proof/RefValue.lean).
-/
import proofs.«155488_j45518063403493_1_alg».proof.Defs
import proofs.«155488_j45518063403493_1_alg».proof.Proof.Gen.Kernel
import proofs.«155488_j45518063403493_1_alg».proof.Proof.Gen.KernelIdeal
import proofs.«155488_j45518063403493_1_alg».proof.Proof.Gen.ReferenceIdeal
import proofs.«155488_j45518063403493_1_alg».proof.Proof.Gen.Pre_finite_inputs
import proofs.«155488_j45518063403493_1_alg».proof.Proof.Gen.ReferenceIdeal.Run
import proofs.«155488_j45518063403493_1_alg».proof.Proof.Kernel.Net
import proofs.«155488_j45518063403493_1_alg».proof.Proof.KernelIdeal.Net
import proofs.«155488_j45518063403493_1_alg».proof.Proof.KernelIdeal.NetValue
import proofs.«155488_j45518063403493_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ => Cert.Kernel.Net.frame m ρ

/-- So does its idealization. -/
theorem frame_ki : Cert.frame_KernelIdeal := fun m ρ _ => Cert.KernelIdeal.Net.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the masked MLP of the
    arguments, and with the arguments unchanged. -/
theorem algebraic : Cert.algebraic_KernelIdeal_ReferenceIdeal := by
  intro m ρ m' ρ' _ hagree
  refine ⟨fun c => Cert.Spec.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Net.run_all m ρ)
    exact ⟨(h c _ (Cert.KernelIdeal.Net.mem_uc Cert.KernelIdeal.main_v7 (by decide))).trans (Cert.KernelIdeal.Net.out_eq m c),
      (h c _ (Cert.KernelIdeal.Net.mem_uc Cert.KernelIdeal.main_arg0 (by decide))).trans (Cert.KernelIdeal.Net.W8_main_arg0 m c),
      (h c _ (Cert.KernelIdeal.Net.mem_uc Cert.KernelIdeal.main_arg1 (by decide))).trans (Cert.KernelIdeal.Net.W8_main_arg1 m c),
      (h c _ (Cert.KernelIdeal.Net.mem_uc Cert.KernelIdeal.main_arg2 (by decide))).trans (Cert.KernelIdeal.Net.W8_main_arg2 m c),
      (h c _ (Cert.KernelIdeal.Net.mem_uc Cert.KernelIdeal.main_arg3 (by decide))).trans (Cert.KernelIdeal.Net.W8_main_arg3 m c),
      (h c _ (Cert.KernelIdeal.Net.mem_uc Cert.KernelIdeal.main_arg4 (by decide))).trans (Cert.KernelIdeal.Net.W8_main_arg4 m c),
      (h c _ (Cert.KernelIdeal.Net.mem_uc Cert.KernelIdeal.main_arg5 (by decide))).trans (Cert.KernelIdeal.Net.W8_main_arg5 m c),
      (h c _ (Cert.KernelIdeal.Net.mem_uc Cert.KernelIdeal.main_arg6 (by decide))).trans (Cert.KernelIdeal.Net.W8_main_arg6 m c),
      (h c _ (Cert.KernelIdeal.Net.mem_uc Cert.KernelIdeal.main_arg7 (by decide))).trans (Cert.KernelIdeal.Net.W8_main_arg7 m c),
      (h c _ (Cert.KernelIdeal.Net.mem_uc Cert.KernelIdeal.main_arg8 (by decide))).trans (Cert.KernelIdeal.Net.W8_main_arg8 m c),
      (h c _ (Cert.KernelIdeal.Net.mem_uc Cert.KernelIdeal.main_arg9 (by decide))).trans (Cert.KernelIdeal.Net.W8_main_arg9 m c),
      (h c _ (Cert.KernelIdeal.Net.mem_uc Cert.KernelIdeal.main_arg10 (by decide))).trans (Cert.KernelIdeal.Net.W8_main_arg10 m c),
      (h c _ (Cert.KernelIdeal.Net.mem_uc Cert.KernelIdeal.main_arg11 (by decide))).trans (Cert.KernelIdeal.Net.W8_main_arg11 m c),
      (h c _ (Cert.KernelIdeal.Net.mem_uc Cert.KernelIdeal.main_arg12 (by decide))).trans (Cert.KernelIdeal.Net.W8_main_arg12 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq]
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
